-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x192 : Shape := ⟨2, ![50000, 192]⟩
abbrev S2x1600000 : Shape := ⟨2, ![2, 1600000]⟩
abbrev S128x128 : Shape := ⟨2, ![128, 128]⟩
abbrev S128 : Shape := ⟨1, ![128]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x192 : S_.BroadcastsInDim S50000x192 (![] : Fin 0 → Fin S50000x192.rank)
  reducesTo_S50000x192_S_d0_1 : S50000x192.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x192 .f32) (main_arg1 : IVec S2x1600000 32) (main_arg2 : FVec F S128x128 .f32) (main_arg3 : FVec F S128 .f32) (main_arg4 : FVec F S1x32 .f32) (main_arg5 : FVec F S32 .f32) (main_arg6 : FVec F S32x1 .f32) (main_arg7 : FVec F S1 .f32) : IVec S_ 1 :=
  let main_v0 : FVec F S50000x192 .f32 := Host.absf main_arg0
  let main_cst : FVec F S_ .f32 := constant S_ .f32 0x7F800000#32
  let main_v1 : FVec F S50000x192 .f32 := broadcastInDim S50000x192 ![] bcast_S_S50000x192 main_cst
  let main_v2 : IVec S50000x192 1 := cmpf .olt main_v0 main_v1
  let main_c : IVec S_ 1 := constantI S_ 1 1#1
  let main_v3 : IVec S_ 1 := (fun x v => Host.reduce IntOp.andi x v reducesTo_S50000x192_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x32 .f32 := Host.absf main_arg4
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg5 main_arg6 main_arg7 main_v13 main_v16
-- ==== Kernel.lean ====
abbrev S50000x192 : Shape := ⟨2, ![50000, 192]⟩
abbrev S2x1600000 : Shape := ⟨2, ![2, 1600000]⟩
abbrev S128x128 : Shape := ⟨2, ![128, 128]⟩
abbrev S128 : Shape := ⟨1, ![128]⟩
abbrev S1x32 : Shape := ⟨2, ![1, 32]⟩
abbrev S32 : Shape := ⟨1, ![32]⟩
abbrev S32x1 : Shape := ⟨2, ![32, 1]⟩
abbrev S1 : Shape := ⟨1, ![1]⟩
abbrev S50000x64 : Shape := ⟨2, ![50000, 64]⟩
abbrev S50000x128 : Shape := ⟨2, ![50000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1650000x128 : Shape := ⟨2, ![1650000, 128]⟩
abbrev S1650688x64 : Shape := ⟨2, ![1650688, 64]⟩
abbrev S1650688x128 : Shape := ⟨2, ![1650688, 128]⟩
abbrev S1650688x1 : Shape := ⟨2, ![1650688, 1]⟩
abbrev S1x1 : Shape := ⟨2, ![1, 1]⟩
abbrev S4096x64 : Shape := ⟨2, ![4096, 64]⟩
abbrev S4096x128 : Shape := ⟨2, ![4096, 128]⟩
abbrev S4096x1 : Shape := ⟨2, ![4096, 1]⟩
abbrev S4096 : Shape := ⟨1, ![4096]⟩
abbrev S4096x32 : Shape := ⟨2, ![4096, 32]⟩
abbrev S1x128 : Shape := ⟨2, ![1, 128]⟩
abbrev S2000x128 : Shape := ⟨2, ![2000, 128]⟩

abbrev nBuf : Space → Nat
  | .hbm => 102
  | .vmem => 20
  | .smem => 0
  | _ => 0

abbrev bufTy : (tb : Table) → Fin (tcTables nBuf tb) → BufTy
  | .hbm, ⟨0, _⟩ => ⟨S50000x192, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000x64, .f32⟩
  | .hbm, ⟨9, _⟩ => ⟨S50000x128, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000x64, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000x64, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S_, .i32⟩
  | .hbm, ⟨59, _⟩ => ⟨S1650000, .i32⟩
  | .hbm, ⟨60, _⟩ => ⟨S1650000, .i1⟩
  | .hbm, ⟨61, _⟩ => ⟨S_, .i32⟩
  | .hbm, ⟨62, _⟩ => ⟨S1650000, .i32⟩
  | .hbm, ⟨63, _⟩ => ⟨S1650000, .i32⟩
  | .hbm, ⟨64, _⟩ => ⟨S1650000, .i32⟩
  | .hbm, ⟨65, _⟩ => ⟨S1650000x1, .i32⟩
  | .hbm, ⟨66, _⟩ => ⟨S1650000, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000, .f32⟩
  | .hbm, ⟨76, _⟩ => ⟨S1650000, .f32⟩
  | .hbm, ⟨77, _⟩ => ⟨S1650000x1, .f32⟩
  | .hbm, ⟨78, _⟩ => ⟨S_, .i32⟩
  | .hbm, ⟨79, _⟩ => ⟨S_, .f32⟩
  | .hbm, ⟨80, _⟩ => ⟨S1650688x64, .f32⟩
  | .hbm, ⟨81, _⟩ => ⟨S_, .i32⟩
  | .hbm, ⟨82, _⟩ => ⟨S_, .f32⟩
  | .hbm, ⟨83, _⟩ => ⟨S1650688x64, .f32⟩
  | .hbm, ⟨84, _⟩ => ⟨S_, .i32⟩
  | .hbm, ⟨85, _⟩ => ⟨S_, .f32⟩
  | .hbm, ⟨86, _⟩ => ⟨S1650688x128, .f32⟩
  | .hbm, ⟨87, _⟩ => ⟨S_, .i32⟩
  | .hbm, ⟨88, _⟩ => ⟨S_, .f32⟩
  | .hbm, ⟨89, _⟩ => ⟨S1650688x1, .f32⟩
  | .hbm, ⟨90, _⟩ => ⟨S1x32, .f32⟩
  | .hbm, ⟨91, _⟩ => ⟨S1x32, .f32⟩
  | .hbm, ⟨92, _⟩ => ⟨S1x1, .f32⟩
  | .hbm, ⟨93, _⟩ => ⟨S1650688x128, .f32⟩
  | .hbm, ⟨94, _⟩ => ⟨S1650000x128, .f32⟩
  | .hbm, ⟨95, _⟩ => ⟨S_, .f32⟩
  | .hbm, ⟨96, _⟩ => ⟨S50000x128, .f32⟩
  | .hbm, ⟨97, _⟩ => ⟨S1650000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x192, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x128, .f32⟩
  | .local _ .vmem, ⟨5, _⟩ => ⟨S4096x128, .f32⟩
  | .local _ .vmem, ⟨6, _⟩ => ⟨S4096x1, .f32⟩
  | .local _ .vmem, ⟨7, _⟩ => ⟨S4096x1, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x1, .f32⟩
  | .local _ .vmem, ⟨12, _⟩ => ⟨S4096x128, .f32⟩
  | .local _ .vmem, ⟨13, _⟩ => ⟨S4096x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_call1_v0 : Ref sig .tc := ⟨.hbm, 79, rfl⟩
abbrev main_v54 : Ref sig .tc := ⟨.hbm, 80, rfl⟩
abbrev main_c_13 : Ref sig .tc := ⟨.hbm, 81, rfl⟩
abbrev main_call2_v0 : Ref sig .tc := ⟨.hbm, 82, rfl⟩
abbrev main_v55 : Ref sig .tc := ⟨.hbm, 83, rfl⟩
abbrev main_c_14 : Ref sig .tc := ⟨.hbm, 84, rfl⟩
abbrev main_call3_v0 : Ref sig .tc := ⟨.hbm, 85, rfl⟩
abbrev main_v56 : Ref sig .tc := ⟨.hbm, 86, rfl⟩
abbrev main_c_15 : Ref sig .tc := ⟨.hbm, 87, rfl⟩
abbrev main_call4_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![403], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S50000x192_S50000x64_0_0 : S50000x192.Slices ![0, 0] S50000x64
  slices_S50000x192_S50000x128_0_64 : S50000x192.Slices ![0, 64] S50000x128
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  pads_S1650000x64_S1650688x64_06880_000 : S1650000x64.Pads (![0, 0] : Fin 2 → Nat) ![688, 0] ![0, 0] S1650688x64
  h_S_ : 0 < S_.numel
  pads_S1650000x128_S1650688x128_06880_000 : S1650000x128.Pads (![0, 0] : Fin 2 → Nat) ![688, 0] ![0, 0] S1650688x128
  pads_S1650000x1_S1650688x1_06880_000 : S1650000x1.Pads (![0, 0] : Fin 2 → Nat) ![688, 0] ![0, 0] S1650688x1
  shapeCasts_S32_S1x32 : S32.ShapeCasts S1x32
  shapeCasts_S32x1_S1x32 : S32x1.ShapeCasts S1x32
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  inb_S1x32_S1x32_0_0 : ∀ a, (![0, 0] : Fin 2 → Nat) a + S1x32.size a ≤ S1x32.size a
  h_S1x32 : 0 < S1x32.numel
  broadcasts_S4096x1_S4096x32 : S4096x1.Broadcasts S4096x32
  broadcasts_S1x32_S4096x32 : S1x32.Broadcasts S4096x32
  shapeCasts_S1x32_S1x32 : S1x32.ShapeCasts S1x32
  reduces_S4096x32_S4096 : S4096x32.Reduces [1] S4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S4096x1_S4096x128 : S4096x1.Broadcasts S4096x128
  slices_S1650688x128_S1650000x128_0_0 : S1650688x128.Slices ![0, 0] S1650000x128
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S50000x64_S50000x128_S50000x192_d1 : Shape.Concatenates [S50000x64, S50000x128] S50000x192 1
  scatter_S50000_S1650000x1_S1650000_n_0_0_1_wf : ScatterDims.WF S50000 S1650000x1 S1650000 [] [0] [0] 1
  gather_S50000x64_S1650000x1_S1650000x64_1_0_n_n_0_1_164_wf : GatherDims.WF S50000x64 S1650000x1 S1650000x64 [1] [0] [] [0] [] 1 ![1, 64]
  gather_S50000x128_S1650000x1_S1650000x128_1_0_n_n_0_1_1128_wf : GatherDims.WF S50000x128 S1650000x1 S1650000x128 [1] [0] [] [0] [] 1 ![1, 128]
  gather_S50000_S1650000x1_S1650000_n_0_n_n_0_1_1_wf : GatherDims.WF S50000 S1650000x1 S1650000 [] [0] [] [0] [] 1 ![1]
  scatter_S50000x128_S1650000x1_S1650000x128_1_0_0_1_wf : ScatterDims.WF S50000x128 S1650000x1 S1650000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1650688x64.size a
  hwx0_0 : ∀ i : grid0.Coords, EltTy.bits .f32 = 32 ∨ (Rect.block (s := S1650688x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1650688x64.size a
  hwx0_1 : ∀ i : grid0.Coords, EltTy.bits .f32 = 32 ∨ (Rect.block (s := S1650688x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S1650688x128.size a
  hwx0_2 : ∀ i : grid0.Coords, EltTy.bits .f32 = 32 ∨ (Rect.block (s := S1650688x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S1650688x1.size a
  hwx0_3 : ∀ i : grid0.Coords, EltTy.bits .f32 = 32 ∨ (Rect.block (s := S1650688x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S1650688x128.size a
  hwx0_8 : ∀ i : grid0.Coords, EltTy.bits .f32 = 32 ∨ (Rect.block (s := S1650688x128) S4096x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v54) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v61) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v65) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x192 : Shape := ⟨2, ![50000, 192]⟩
abbrev S2x1600000 : Shape := ⟨2, ![2, 1600000]⟩
abbrev S128x128 : Shape := ⟨2, ![128, 128]⟩
abbrev S128 : Shape := ⟨1, ![128]⟩
abbrev S1x32 : Shape := ⟨2, ![1, 32]⟩
abbrev S32 : Shape := ⟨1, ![32]⟩
abbrev S32x1 : Shape := ⟨2, ![32, 1]⟩
abbrev S1 : Shape := ⟨1, ![1]⟩
abbrev S50000x64 : Shape := ⟨2, ![50000, 64]⟩
abbrev S50000x128 : Shape := ⟨2, ![50000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1650000x32 : Shape := ⟨2, ![1650000, 32]⟩
abbrev S1x1 : Shape := ⟨2, ![1, 1]⟩
abbrev S1650000x128 : Shape := ⟨2, ![1650000, 128]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S50000x192, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000x64, .f32⟩
  | .hbm, ⟨9, _⟩ => ⟨S50000x128, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x64, .f32⟩
  | .hbm, ⟨60, _⟩ => ⟨S_, .i32⟩
  | .hbm, ⟨61, _⟩ => ⟨S1650000, .i32⟩
  | .hbm, ⟨62, _⟩ => ⟨S1650000, .i1⟩
  | .hbm, ⟨63, _⟩ => ⟨S_, .i32⟩
  | .hbm, ⟨64, _⟩ => ⟨S1650000, .i32⟩
  | .hbm, ⟨65, _⟩ => ⟨S1650000, .i32⟩
  | .hbm, ⟨66, _⟩ => ⟨S1650000, .i32⟩
  | .hbm, ⟨67, _⟩ => ⟨S1650000x1, .i32⟩
  | .hbm, ⟨68, _⟩ => ⟨S1650000x64, .f32⟩
  | .hbm, ⟨69, _⟩ => ⟨S1650000x64, .f32⟩
  | .hbm, ⟨70, _⟩ => ⟨S1650000x64, .f32⟩
  | .hbm, ⟨71, _⟩ => ⟨S_, .f32⟩
  | .hbm, ⟨72, _⟩ => ⟨S1650000, .f32⟩
  | .hbm, ⟨73, _⟩ => ⟨S1650000x1, .f32⟩
  | .hbm, ⟨74, _⟩ => ⟨S1650000x32, .f32⟩
  | .hbm, ⟨75, _⟩ => ⟨S1x32, .f32⟩
  | .hbm, ⟨76, _⟩ => ⟨S1650000x32, .f32⟩
  | .hbm, ⟨77, _⟩ => ⟨S1650000x32, .f32⟩
  | .hbm, ⟨78, _⟩ => ⟨S1650000x1, .f32⟩
  | .hbm, ⟨79, _⟩ => ⟨S1x1, .f32⟩
  | .hbm, ⟨80, _⟩ => ⟨S1650000x1, .f32⟩
  | .hbm, ⟨81, _⟩ => ⟨S1650000x1, .f32⟩
  | .hbm, ⟨82, _⟩ => ⟨S1650000x1, .f32⟩
  | .hbm, ⟨83, _⟩ => ⟨S1650000x1, .f32⟩
  | .hbm, ⟨84, _⟩ => ⟨S_, .f32⟩
  | .hbm, ⟨85, _⟩ => ⟨S1650000x1, .f32⟩
  | .hbm, ⟨86, _⟩ => ⟨S1650000x1, .f32⟩
  | .hbm, ⟨87, _⟩ => ⟨S_, .f32⟩
  | .hbm, ⟨88, _⟩ => ⟨S1650000x1, .f32⟩
  | .hbm, ⟨89, _⟩ => ⟨S1650000x1, .f32⟩
  | .hbm, ⟨90, _⟩ => ⟨S1650000x1, .f32⟩
  | .hbm, ⟨91, _⟩ => ⟨S1650000x1, .f32⟩
  | .hbm, ⟨92, _⟩ => ⟨S_, .i32⟩
  | .hbm, ⟨93, _⟩ => ⟨S1650000, .i32⟩
  | .hbm, ⟨94, _⟩ => ⟨S1650000, .i1⟩
  | .hbm, ⟨95, _⟩ => ⟨S_, .i32⟩
  | .hbm, ⟨96, _⟩ => ⟨S1650000, .i32⟩
  | .hbm, ⟨97, _⟩ => ⟨S1650000, .i32⟩
  | .hbm, ⟨98, _⟩ => ⟨S1650000, .i32⟩
  | .hbm, ⟨99, _⟩ => ⟨S1650000x1, .i32⟩
  | .hbm, ⟨100, _⟩ => ⟨S1650000x128, .f32⟩
  | .hbm, ⟨101, _⟩ => ⟨S1650000x128, .f32⟩
  | .hbm, ⟨102, _⟩ => ⟨S1650000x128, .f32⟩
  | .hbm, ⟨103, _⟩ => ⟨S_, .f32⟩
  | .hbm, ⟨104, _⟩ => ⟨S50000x128, .f32⟩
  | .hbm, ⟨105, _⟩ => ⟨S1650000x1, .i32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S50000x192, .f32⟩
  | _, _ => ⟨S50000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]

class Facts₀ : Prop where
  slices_S50000x192_S50000x64_0_0 : S50000x192.Slices ![0, 0] S50000x64
  slices_S50000x192_S50000x128_0_64 : S50000x192.Slices ![0, 64] S50000x128
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  reducesTo_S1650000x64_S1650000_d1 : S1650000x64.ReducesTo [1] S1650000
  h_S_ : 0 < S_.numel
  bcast_S32_S1x32_1 : S32.BroadcastsInDim S1x32 (![1] : Fin 1 → Fin S1x32.rank)
  bcast_S1x32_S1650000x32_0_1 : S1x32.BroadcastsInDim S1650000x32 (![0, 1] : Fin 2 → Fin S1650000x32.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  bcast_S_S1650000x1 : S_.BroadcastsInDim S1650000x1 (![] : Fin 0 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x64_S50000x128_S50000x192_d1 : Shape.Concatenates [S50000x64, S50000x128] S50000x192 1
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  dot_S1650000x1_S1x32_S1650000x32_1_0_0_1_n_n_wf : DotDims.WF S1650000x1 S1x32 S1650000x32 [1] [0] [0] [1] [] []
  dot_S1650000x32_S32x1_S1650000x1_1_0_0_1_n_n_wf : DotDims.WF S1650000x32 S32x1 S1650000x1 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def dot_S1650000x1_S1x32_S1650000x32_1_0_0_1_n_n : DotDims S1650000x1 S1x32 S1650000x32 where
  lhsContracting := [1]
  rhsContracting := [0]
  lhsNonContracting := [0]
  rhsNonContracting := [1]
  lhsBatch := []
  rhsBatch := []
  wf := dot_S1650000x1_S1x32_S1650000x32_1_0_0_1_n_n_wf
def dot_S1650000x32_S32x1_S1650000x1_1_0_0_1_n_n : DotDims S1650000x32 S32x1 S1650000x1 where
  lhsContracting := [1]
  rhsContracting := [0]
  lhsNonContracting := [0]
  rhsNonContracting := [1]
  lhsBatch := []
  rhsBatch := []
  wf := dot_S1650000x32_S32x1_S1650000x1_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, one entry at a time, on the extended reals.

  An edge `e` carries two 64-vectors `a = coors[row e]`, `b = coors[col e]`, a weight `ew` and a feature row. Its
  gate is the logistic function of `∑ k, (‖a - b‖² · w1 k + b1 k) · w2 k + b2` (a 1 → 32 → 1 linear chain with no
  nonlinearity inside), and the message entry `j` is `gate · ew · f`, `f` the feature at column `j`. A node's output
  entry is a row of summed messages against a column of the 128 × 128 weight, plus the bias.

  Written over plain functions of `Fin 64`, `Fin 32`, `Fin 128`, so that either program's arrays, however they are laid
  out (a row vector `[1, 32]`, a column `[32, 1]`, a flat `[32]`), are read into it at explicit coordinates.
-/
import Idealize.ShloMosaic.PureOps.Ideal

noncomputable section

namespace Cert.Spec

open Idealize.ShloMosaic

/-- The squared distance `‖a - b‖²` of two 64-vectors. -/
def dist2 (a b : Fin 64 → EReal) : EReal := ∑ d : Fin 64, (a d - b d) * (a d - b d)

/-- An edge's gate: the logistic function of the 1 → 32 → 1 linear chain applied to the squared distance. -/
def gate (a b : Fin 64 → EReal) (w1 b1 w2 : Fin 32 → EReal) (b2 : EReal) : EReal :=
  Ideal.logistic ((∑ k : Fin 32, (dist2 a b * w1 k + b1 k) * w2 k) + b2)

/-- One entry of an edge's message: gate times edge weight times the feature. -/
def msg (a b : Fin 64 → EReal) (w1 b1 w2 : Fin 32 → EReal) (b2 ew f : EReal) : EReal :=
  gate a b w1 b1 w2 b2 * ew * f

/-- One entry of the final mix: a row of node sums against a weight column, plus the bias entry. -/
def mix (r wcol : Fin 128 → EReal) (b : EReal) : EReal := (∑ k : Fin 128, r k * wcol k) + b

/-- An edge's row in the array padded to a whole number of 4096-row blocks. -/
abbrev up (e : Fin 1650000) : Fin 1650688 := ⟨e.val, by have := e.isLt; omega⟩

end Cert.Spec

end
-- ==== Proof.KArgs.lean ====
/-
  Names for the eight argument arrays of the kernel program as the launch memory holds them on a device, each at its
  literal array type, so that later statements read `a0 m c` for "the argument `x`" and so on.
-/
import proofs.«155262_j14190571946497_1_alg».proof.KernelIdeal
import Idealize.ShloMosaic.PureOps.Ideal

noncomputable section

namespace Cert.KernelIdeal.KArgs

open Cert.KernelIdeal Idealize.ShloMosaic Idealize.ShloMosaic.TcCoe Idealize.SL.Sem

variable (m : (ℓ : Loc nD τ sig) → Buf (Elt Ideal) ℓ)

/-- `x : f32[50000, 192]`: 64 position columns, then 128 feature columns. -/
abbrev a0 (c : Dev nD) : (⟨S50000x192, .f32⟩ : BufTy).Contents (Elt Ideal) := m ((c : Thread nD τ).loc main_arg0)
/-- `edge_index : i32[2, 1600000]`. -/
abbrev a1 (c : Dev nD) : (⟨S2x1600000, .i32⟩ : BufTy).Contents (Elt Ideal) := m ((c : Thread nD τ).loc main_arg1)
/-- `w_no : f32[128, 128]`. -/
abbrev a2 (c : Dev nD) : (⟨S128x128, .f32⟩ : BufTy).Contents (Elt Ideal) := m ((c : Thread nD τ).loc main_arg2)
/-- `bias : f32[128]`. -/
abbrev a3 (c : Dev nD) : (⟨S128, .f32⟩ : BufTy).Contents (Elt Ideal) := m ((c : Thread nD τ).loc main_arg3)
/-- `mlp_w1 : f32[1, 32]`. -/
abbrev a4 (c : Dev nD) : (⟨S1x32, .f32⟩ : BufTy).Contents (Elt Ideal) := m ((c : Thread nD τ).loc main_arg4)
/-- `mlp_b1 : f32[32]`. -/
abbrev a5 (c : Dev nD) : (⟨S32, .f32⟩ : BufTy).Contents (Elt Ideal) := m ((c : Thread nD τ).loc main_arg5)
/-- `mlp_w2 : f32[32, 1]`. -/
abbrev a6 (c : Dev nD) : (⟨S32x1, .f32⟩ : BufTy).Contents (Elt Ideal) := m ((c : Thread nD τ).loc main_arg6)
/-- `mlp_b2 : f32[1]`. -/
abbrev a7 (c : Dev nD) : (⟨S1, .f32⟩ : BufTy).Contents (Elt Ideal) := m ((c : Thread nD τ).loc main_arg7)

end Cert.KernelIdeal.KArgs

end
-- ==== Proof.EdgeRegion.lean ====
/-
  The first kernel region, read as a value. Its grid has 403 points; point `t` stages rows `4096 t … 4096 t + 4095` of the
  four per-edge arrays and the whole of the four small parameter arrays, and writes back the same rows of the message
  array. So after the region, entry `(e, j)` of the message array is the message of edge `e` at column `j`
  (`Cert.Spec.msg`), computed from row `e` of the per-edge arrays as the region found them.
-/
import proofs.«155262_j14190571946497_1_alg».proof.Proof.Gen.KernelIdeal.Frame
import proofs.«155262_j14190571946497_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeRegion

open Cert.KernelIdeal Cert.KernelIdeal.Gen

/-! ## Layout operations of the body, read at an index -/

section Layout
variable {α : Type}

/-- A vector `[a]` cast to the column `[a, 1]` reads, at `(p, u)`, the operand at `p`. -/
private theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the operand's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the 64 columns of a `[4096, 64]` array, read at row `p`. -/
private theorem rowsum64_apply (src : FVec Ideal S4096x64 .f32) (h : S4096x64.Reduces [1] S4096) (hφ : FKind.Formats .f32)
    (hacc : (0x00000000#32 : BitVec 32) = 0x00000000#32) (p : Fin 4096) :
    multiReduction (F := Ideal) .add [1] S4096 src 0x00000000#32 h hφ hacc (ix1 p) = ∑ d : Fin 64, src (ix2 p d) := by
  refine (Ideal.multiReduction_add_single src 0x00000000#32 h hφ hacc (ix1 p)).trans ?_
  show ∑ d : Fin 64, src (h.lift (ix1 p) d) = _
  refine Finset.sum_congr rfl fun d _ => congrArg src ?_
  funext ax; apply Fin.ext
  match ax with
  | ⟨0, _⟩ => rfl
  | ⟨1, _⟩ => rfl

/-- The sum over the 32 columns of a `[4096, 32]` array, read at row `p`. -/
private theorem rowsum32_apply (src : FVec Ideal S4096x32 .f32) (h : S4096x32.Reduces [1] S4096) (hφ : FKind.Formats .f32)
    (hacc : (0x00000000#32 : BitVec 32) = 0x00000000#32) (p : Fin 4096) :
    multiReduction (F := Ideal) .add [1] S4096 src 0x00000000#32 h hφ hacc (ix1 p) = ∑ k : Fin 32, src (ix2 p k) := by
  refine (Ideal.multiReduction_add_single src 0x00000000#32 h hφ hacc (ix1 p)).trans ?_
  show ∑ k : Fin 32, src (h.lift (ix1 p) k) = _
  refine Finset.sum_congr rfl fun k _ => congrArg src ?_
  funext ax; apply Fin.ext
  match ax with
  | ⟨0, _⟩ => rfl
  | ⟨1, _⟩ => rfl

/-- The logistic function of a vector, entry by entry. -/
private theorem logistic_apply {s : Shape} {φ : FTy} (x : FVec Ideal s φ) (i : s.Idx) :
    logistic x i = Ideal.logistic (x i) := rfl

/-! ## The body's value at an index -/

/-- Entry `(p, q)` of what the body stores is the message of the edge in row `p` of the loaded blocks, at column `q`:
    the squared distance of the two coordinate rows, through the 1 → 32 → 1 chain read off the three parameter rows and
    the scalar, through the logistic function, times the edge weight, times the feature. The entries of the blocks that
    the value reads are named by hypotheses. -/
private theorem pay_apply (v0 v2 : Vec Ideal S4096x64 .f32) (v8 v12 v16 : Vec Ideal S1x32 .f32) (v22 : Vec Ideal S1x1 .f32)
    (v27 : Vec Ideal S4096x1 .f32) (v30 : Vec Ideal S4096x128 .f32) (p : Fin 4096) (q : Fin 128)
    (a b : Fin 64 → EReal) (w1 b1 w2 : Fin 32 → EReal) (b2 ew f : EReal)
    (h0 : ∀ d, v0 (ix2 p d) = a d) (h2 : ∀ d, v2 (ix2 p d) = b d)
    (h8 : ∀ k, v8 (ix2 0 k) = w1 k) (h12 : ∀ k, v12 (ix2 0 k) = b1 k) (h16 : ∀ k, v16 (ix2 0 k) = w2 k)
    (h22 : v22 (ix2 0 0) = b2) (h27 : v27 (ix2 p 0) = ew) (h30 : v30 (ix2 p q) = f) :
    k0_pay1 v0 v2 v8 v12 v16 v22 v27 v30 (ix2 p q) = Cert.Spec.msg a b w1 b1 w2 b2 ew f := by
  unfold k0_pay1 Cert.Spec.msg Cert.Spec.gate Cert.Spec.dist2
  dsimp only
  simp only [shapeCast_self, mulf_apply, addf_apply, logistic_apply, broadcastTo_a1_ab_apply,
    broadcastTo_1b_ab_apply, shapeCast_a_a1_apply]
  rw [rowsum32_apply]
  simp only [mulf_apply, addf_apply, broadcastTo_a1_ab_apply, broadcastTo_1b_ab_apply, shapeCast_a_a1_apply]
  rw [rowsum64_apply]
  simp only [mulf_apply, subf_apply, h0, h2, h8, h12, h16, h22, h27, h30]

/-! ## The grid: which block each window reads at each point -/

/-- The zero offsets of a whole-buffer access, as the constant function. -/
private theorem hz : (![0, 0] : Fin 2 → Nat) = fun _ => 0 := funext fun a => by fin_cases a <;> rfl

/-- The per-edge windows and the output window are at block `(t, 0)` at point `t` (decided over the 403 points). -/
private theorem idx_edge : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_8.index t (0 : Fin 2) = t.val ∧ win0_8.index t (1 : Fin 2) = 0) :=
  (by decide +kernel : ∀ t : Fin grid0.N, _)

/-- The parameter windows are at block `(0, 0)` at every point (decided over the 403 points). -/
private theorem idx_par : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The grid has 403 points. -/
private theorem lt_N (t : Fin cfg0.N) : t.val < 403 :=
  Nat.lt_of_lt_of_eq t.isLt (show cfg0.N = 403 from N_0)

/-- Row `p` of the block of point `t`, as a row of the whole array. -/
private def rowOf (t : Fin cfg0.N) (p : Fin 4096) : Fin 1650688 :=
  ⟨t.val * 4096 + p.val, by have := lt_N t; have := p.isLt; omega⟩

/-! ## The windows' blocks, read at an index -/

section Blocks
variable (V : (c : Dev nD) → (b : Ref sig .tc) → Buf (Elt Ideal) ((c : Thread nD τ).loc b)) (c : Dev nD) (t : Fin cfg0.N)

/-- Window 0's block at point `t` is rows `4096 t …` of the first coordinate array. -/
private theorem blk0_apply (p : Fin 4096) (d : Fin 64) :
    (iblk0 V c 0 t : Vec Ideal S4096x64 .f32) (ix2 p d) = (V c main_v54 : S1650688x64.Idx → EReal) (ix2 (rowOf t p) d) := by
  obtain ⟨⟨e0, e1⟩, -⟩ := idx_edge t
  unfold iblk0
  rw [View.read_apply]
  show (V c main_v54 : S1650688x64.Idx → EReal) _ = _
  congr 1
  funext a; apply Fin.ext
  match a with
  | ⟨0, _⟩ => show win0_0.index t (0 : Fin 2) * 4096 + 1 * p.val = t.val * 4096 + p.val; rw [e0]; omega
  | ⟨1, _⟩ => show win0_0.index t (1 : Fin 2) * 64 + 1 * d.val = d.val; rw [e1]; omega

/-- Window 1's block at point `t` is rows `4096 t …` of the second coordinate array. -/
private theorem blk1_apply (p : Fin 4096) (d : Fin 64) :
    (iblk0 V c 1 t : Vec Ideal S4096x64 .f32) (ix2 p d) = (V c main_v55 : S1650688x64.Idx → EReal) (ix2 (rowOf t p) d) := by
  obtain ⟨-, ⟨e0, e1⟩, -⟩ := idx_edge t
  unfold iblk0
  rw [View.read_apply]
  show (V c main_v55 : S1650688x64.Idx → EReal) _ = _
  congr 1
  funext a; apply Fin.ext
  match a with
  | ⟨0, _⟩ => show win0_1.index t (0 : Fin 2) * 4096 + 1 * p.val = t.val * 4096 + p.val; rw [e0]; omega
  | ⟨1, _⟩ => show win0_1.index t (1 : Fin 2) * 64 + 1 * d.val = d.val; rw [e1]; omega

/-- Window 2's block at point `t` is rows `4096 t …` of the feature array. -/
private theorem blk2_apply (p : Fin 4096) (q : Fin 128) :
    (iblk0 V c 2 t : Vec Ideal S4096x128 .f32) (ix2 p q) = (V c main_v56 : S1650688x128.Idx → EReal) (ix2 (rowOf t p) q) := by
  obtain ⟨-, -, ⟨e0, e1⟩, -⟩ := idx_edge t
  unfold iblk0
  rw [View.read_apply]
  show (V c main_v56 : S1650688x128.Idx → EReal) _ = _
  congr 1
  funext a; apply Fin.ext
  match a with
  | ⟨0, _⟩ => show win0_2.index t (0 : Fin 2) * 4096 + 1 * p.val = t.val * 4096 + p.val; rw [e0]; omega
  | ⟨1, _⟩ => show win0_2.index t (1 : Fin 2) * 128 + 1 * q.val = q.val; rw [e1]; omega

/-- Window 3's block at point `t` is rows `4096 t …` of the edge-weight column. -/
private theorem blk3_apply (p : Fin 4096) :
    (iblk0 V c 3 t : Vec Ideal S4096x1 .f32) (ix2 p 0) = (V c main_v57 : S1650688x1.Idx → EReal) (ix2 (rowOf t p) 0) := by
  obtain ⟨-, -, -, ⟨e0, e1⟩, -⟩ := idx_edge t
  unfold iblk0
  rw [View.read_apply]
  show (V c main_v57 : S1650688x1.Idx → EReal) _ = _
  congr 1
  funext a; apply Fin.ext
  match a with
  | ⟨0, _⟩ => show win0_3.index t (0 : Fin 2) * 4096 + 1 * p.val = t.val * 4096 + p.val; rw [e0]; omega
  | ⟨1, _⟩ => show win0_3.index t (1 : Fin 2) * 1 + 1 * (0 : Fin 1).val = (0 : Fin 1).val; rw [e1]; rfl

/-- Window 4's block at every point is the whole first parameter row. -/
private theorem blk4_apply (k : Fin 32) :
    (iblk0 V c 4 t : Vec Ideal S1x32 .f32) (ix2 0 k) = (V c main_arg4 : S1x32.Idx → EReal) (ix2 0 k) := by
  obtain ⟨⟨e0, e1⟩, -⟩ := idx_par t
  unfold iblk0
  rw [View.read_apply]
  show (V c main_arg4 : S1x32.Idx → EReal) _ = _
  congr 1
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 32 + 1 * k.val = k.val; rw [e1]; omega

/-- Window 5's block at every point is the whole second parameter row. -/
private theorem blk5_apply (k : Fin 32) :
    (iblk0 V c 5 t : Vec Ideal S1x32 .f32) (ix2 0 k) = (V c main_v58 : S1x32.Idx → EReal) (ix2 0 k) := by
  obtain ⟨-, ⟨e0, e1⟩, -⟩ := idx_par t
  unfold iblk0
  rw [View.read_apply]
  show (V c main_v58 : S1x32.Idx → EReal) _ = _
  congr 1
  funext a; apply Fin.ext
  match a with
  | ⟨0, _⟩ => show win0_5.index t (0 : Fin 2) * 1 + 1 * (0 : Fin 1).val = (0 : Fin 1).val; rw [e0]; rfl
  | ⟨1, _⟩ => show win0_5.index t (1 : Fin 2) * 32 + 1 * k.val = k.val; rw [e1]; omega

/-- Window 6's block at every point is the whole third parameter row. -/
private theorem blk6_apply (k : Fin 32) :
    (iblk0 V c 6 t : Vec Ideal S1x32 .f32) (ix2 0 k) = (V c main_v59 : S1x32.Idx → EReal) (ix2 0 k) := by
  obtain ⟨-, -, ⟨e0, e1⟩, -⟩ := idx_par t
  unfold iblk0
  rw [View.read_apply]
  show (V c main_v59 : S1x32.Idx → EReal) _ = _
  congr 1
  funext a; apply Fin.ext
  match a with
  | ⟨0, _⟩ => show win0_6.index t (0 : Fin 2) * 1 + 1 * (0 : Fin 1).val = (0 : Fin 1).val; rw [e0]; rfl
  | ⟨1, _⟩ => show win0_6.index t (1 : Fin 2) * 32 + 1 * k.val = k.val; rw [e1]; omega

/-- Window 7's block at every point is the one-entry parameter array. -/
private theorem blk7_apply :
    (iblk0 V c 7 t : Vec Ideal S1x1 .f32) (ix2 0 0) = (V c main_v60 : S1x1.Idx → EReal) (ix2 0 0) := by
  obtain ⟨-, -, -, e0, e1⟩ := idx_par t
  unfold iblk0
  rw [View.read_apply]
  show (V c main_v60 : S1x1.Idx → EReal) _ = _
  congr 1
  funext a; apply Fin.ext
  match a with
  | ⟨0, _⟩ => show win0_7.index t (0 : Fin 2) * 1 + 1 * (0 : Fin 1).val = (0 : Fin 1).val; rw [e0]; rfl
  | ⟨1, _⟩ => show win0_7.index t (1 : Fin 2) * 1 + 1 * (0 : Fin 1).val = (0 : Fin 1).val; rw [e1]; rfl

end Blocks

/-! ## From the blocks to the array -/

section Array
variable (V : (c : Dev nD) → (b : Ref sig .tc) → Buf (Elt Ideal) ((c : Thread nD τ).loc b)) (c : Dev nD)

/-- The message of edge `e` at column `j`, of the arrays as the region finds them. -/
private def edgeMsg (e : Fin 1650688) (j : Fin 128) : EReal :=
  Cert.Spec.msg (fun d => (V c main_v54 : S1650688x64.Idx → EReal) (ix2 e d))
    (fun d => (V c main_v55 : S1650688x64.Idx → EReal) (ix2 e d))
    (fun k => (V c main_arg4 : S1x32.Idx → EReal) (ix2 0 k))
    (fun k => (V c main_v58 : S1x32.Idx → EReal) (ix2 0 k))
    (fun k => (V c main_v59 : S1x32.Idx → EReal) (ix2 0 k))
    ((V c main_v60 : S1x1.Idx → EReal) (ix2 0 0))
    ((V c main_v57 : S1650688x1.Idx → EReal) (ix2 e 0))
    ((V c main_v56 : S1650688x128.Idx → EReal) (ix2 e j))

/-- The whole message array: every entry its edge's message. -/
private def msgArray : S1650688x128.Idx → EReal := fun i => edgeMsg V c (i 0) (i 1)

/-- Two functions of a `[4096, 128]` index that agree at every pair of coordinates are equal. -/
private theorem funext_ix2 {β : Type} {f g : S4096x128.Idx → β} (h : ∀ (p : Fin 4096) (q : Fin 128), f (ix2 p q) = g (ix2 p q)) :
    f = g :=
  funext fun y => by rw [eq_ix2 y]; exact h _ _

/-- Entry `(p, q)` of the output window's block at point `t` sits at row `rowOf t p`, column `q` of the array. -/
private theorem out_emb (t : Fin cfg0.N) (p : Fin 4096) (q : Fin 128) :
    (((cfg0.win 8).blk t).view.emb (ix2 p q : S4096x128.Idx) : S1650688x128.Idx) = ix2 (rowOf t p) q := by
  obtain ⟨-, -, -, -, e0, e1⟩ := idx_edge t
  funext a; apply Fin.ext
  match a with
  | ⟨0, _⟩ => show win0_8.index t (0 : Fin 2) * 4096 + 1 * p.val = t.val * 4096 + p.val; rw [e0]; omega
  | ⟨1, _⟩ => show win0_8.index t (1 : Fin 2) * 128 + 1 * q.val = q.val; rw [e1]; omega

/-- What point `t` writes back is block `t` of the message array. -/
private theorem flushed_eq (t : Fin cfg0.N) :
    (dat0 (F := Ideal) V c).flushed 8 t = ((cfg0.win 8).blk t).view.read (Elt Ideal) (msgArray V c) := by
  show (cfg0.win 8).cut (grid0.coords t) ((dat0 (F := Ideal) V c).after 8 t) = _
  rw [after0_8]
  unfold out0_8
  rw [View.canon_unit_zero hz]
  simp only [View.ld_unit_zero (S := S4096x64) hz, View.ld_unit_zero (S := S1x32) hz, View.ld_unit_zero (S := S1x1) hz,
    View.ld_unit_zero (S := S4096x1) hz, View.ld_unit_zero (S := S4096x128) hz]
  refine funext_ix2 fun p q => ?_
  show k0_pay1 (iblk0 V c 0 t) (iblk0 V c 1 t) (iblk0 V c 4 t) (iblk0 V c 5 t) (iblk0 V c 6 t) (iblk0 V c 7 t)
      (iblk0 V c 3 t) (iblk0 V c 2 t) (ix2 p q) = msgArray V c (((cfg0.win 8).blk t).view.emb (ix2 p q : S4096x128.Idx))
  rw [out_emb]
  exact pay_apply (iblk0 V c 0 t) (iblk0 V c 1 t) (iblk0 V c 4 t) (iblk0 V c 5 t) (iblk0 V c 6 t) (iblk0 V c 7 t)
    (iblk0 V c 3 t) (iblk0 V c 2 t) p q _ _ _ _ _ _ _ _
    (fun d => blk0_apply V c t p d) (fun d => blk1_apply V c t p d) (fun k => blk4_apply V c t k)
    (fun k => blk5_apply V c t k) (fun k => blk6_apply V c t k) (blk7_apply V c t) (blk3_apply V c t p)
    (blk2_apply V c t p q)

/-- An index of the array is in point `t`'s block iff each coordinate is in the block's range on its axis. -/
private theorem mem_blk (t : Fin cfg0.N) (i : S1650688x128.Idx) :
    i ∈ ((cfg0.win 8).blk t).view.set ↔ ∀ a : Fin 2, win0_8.index t a * S4096x128.size a ≤ (i a).val
      ∧ (i a).val < win0_8.index t a * S4096x128.size a + S4096x128.size a := by
  show i ∈ ((View.whole main_v61).slice (win0_8.rect t)).set ↔ _
  rw [View.set_slice_whole, Rect.mem_set_unit]
  exact Iff.rfl

/-- The point whose block holds row `e`. -/
private def pointOf (e : Fin 1650688) : Fin cfg0.N :=
  ⟨e.val / 4096, by rw [show cfg0.N = 403 from N_0]; have := e.isLt; omega⟩

/-- Entry `(e, j)` is in the block of the point `⌊e / 4096⌋`. -/
private theorem mem_pointOf (e : Fin 1650688) (j : Fin 128) :
    (ix2 e j : S1650688x128.Idx) ∈ ((cfg0.win 8).blk (pointOf e)).view.set := by
  obtain ⟨-, -, -, -, e0, e1⟩ := idx_edge (pointOf e)
  rw [mem_blk]
  intro a
  match a with
  | ⟨0, _⟩ =>
    show win0_8.index (pointOf e) (0 : Fin 2) * 4096 ≤ e.val ∧ e.val < win0_8.index (pointOf e) (0 : Fin 2) * 4096 + 4096
    rw [e0]
    show e.val / 4096 * 4096 ≤ e.val ∧ e.val < e.val / 4096 * 4096 + 4096
    omega
  | ⟨1, _⟩ =>
    show win0_8.index (pointOf e) (1 : Fin 2) * 128 ≤ j.val ∧ j.val < win0_8.index (pointOf e) (1 : Fin 2) * 128 + 128
    rw [e1]
    have := j.isLt
    omega

end Array

/-- After the region, the message array at `(e, j)` is the message of edge `e` at column `j`, of the entry contents `V`. -/
theorem edge_array (V : (c : Dev nD) → (b : Ref sig .tc) → Buf (Elt Ideal) ((c : Thread nD τ).loc b)) (c : Dev nD)
    (e : Fin 1650688) (j : Fin 128) :
    ((dat0 (F := Ideal) V c).arrAt 8 cfg0.N : S1650688x128.Idx → EReal) (ix2 e j)
      = Cert.Spec.msg (fun d => (V c main_v54 : S1650688x64.Idx → EReal) (ix2 e d))
          (fun d => (V c main_v55 : S1650688x64.Idx → EReal) (ix2 e d))
          (fun k => (V c main_arg4 : S1x32.Idx → EReal) (ix2 0 k))
          (fun k => (V c main_v58 : S1x32.Idx → EReal) (ix2 0 k))
          (fun k => (V c main_v59 : S1x32.Idx → EReal) (ix2 0 k))
          ((V c main_v60 : S1x1.Idx → EReal) (ix2 0 0))
          ((V c main_v57 : S1650688x1.Idx → EReal) (ix2 e 0))
          ((V c main_v56 : S1650688x128.Idx → EReal) (ix2 e j)) :=
  (dat0 (F := Ideal) V c).arrAt_apply_of_mem 8 (msgArray V c) (fun t _ => flushed_eq V c t) cfg0.N (pointOf e) (ix2 e j)
    (pointOf e).isLt (flush0_8 (pointOf e)) (mem_pointOf e j)

end Cert.KernelIdeal.EdgeRegion

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.MixRegion.lean ====
/-
  The second kernel region, read as a value. Its grid has 25 points; point `t` stages rows `2000 t … 2000 t + 1999` of the
  node sums, the whole 128 × 128 weight and the bias row, and writes back the same rows of the output. The body is one
  matrix product into a zero accumulator (the change of float format before it is the identity on the extended reals)
  plus the bias row: entry `(n, j)` of the output is `∑ k, M (n, k) · w (k, j) + b (0, j)` (`Cert.Spec.mix`).
-/
import proofs.«155262_j14190571946497_1_alg».proof.Proof.Gen.KernelIdeal.Frame
import proofs.«155262_j14190571946497_1_alg».proof.Proof.Spec
import proofs.«155262_j14190571946497_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MixRegion

open Cert.KernelIdeal Cert.KernelIdeal.Gen

/-- Both offsets of a whole-buffer rectangle are zero. -/
private theorem zero_offsets : (![0, 0] : Fin 2 → Nat) = fun _ => 0 := funext fun a => by fin_cases a <;> rfl

/-! ## The body's value at an entry of a block -/

/-- The body's stored value at entry `(p, q)` of a block: row `p` of the staged node sums against column `q` of the
    staged weight (the change of float format is the identity on the extended reals; the accumulator is zero), plus the
    staged bias row at `q`. -/
private theorem payload_apply (v0 : Vec Ideal S2000x128 .f32) (v3 : Vec Ideal S128x128 .f32) (v6 : Vec Ideal S1x128 .f32)
    (p : Fin 2000) (q : Fin 128) :
    k1_pay1 v0 v3 v6 (ix2 p q)
      = Cert.Spec.mix (fun k => v0 (ix2 p k)) (fun k => v3 (ix2 k q)) (v6 (ix2 0 q)) := by
  unfold k1_pay1 Cert.Spec.mix
  simp only [shapeCast_self]
  rw [addf_apply, broadcastTo_1b_ab_apply]
  refine congrArg (· + v6 (ix2 0 q)) ?_
  exact Cert.PlainDot.matmul_zero_apply dot_S2000x128_S128x128_S2000x128_1_0_0_1_n_n rfl rfl rfl rfl rfl rfl none _ _ p q

/-- The whole output array as one function of the three arrays the region reads: entry `i = (n, j)` is row `n` of the
    node sums against column `j` of the weight, plus the bias at `j`. -/
private def wholeMix (M : S50000x128.Idx → EReal) (w : S128x128.Idx → EReal) (b : S1x128.Idx → EReal) : S50000x128.Idx → EReal :=
  fun i => Cert.Spec.mix (fun k => M (ix2 (i 0 : Fin 50000) k)) (fun k => w (ix2 k (i 1 : Fin 128))) (b (ix2 0 (i 1 : Fin 128)))

/-- The body's value at an entry `y` of a block equals the whole-array function at an index `i` as soon as the staged
    row, the staged column and the staged bias entry are those of the arrays at `i`. -/
private theorem payload_eq_wholeMix (x0 : Vec Ideal S2000x128 .f32) (x1 : Vec Ideal S128x128 .f32) (x2 : Vec Ideal S1x128 .f32)
    (M : S50000x128.Idx → EReal) (w : S128x128.Idx → EReal) (b : S1x128.Idx → EReal)
    (y : S2000x128.Idx) (i : S50000x128.Idx)
    (h0 : ∀ k : Fin 128, x0 (ix2 (y 0 : Fin 2000) k) = M (ix2 (i 0 : Fin 50000) k))
    (h1 : ∀ k : Fin 128, x1 (ix2 k (y 1 : Fin 128)) = w (ix2 k (i 1 : Fin 128)))
    (h2 : x2 (ix2 0 (y 1 : Fin 128)) = b (ix2 0 (i 1 : Fin 128))) :
    k1_pay1 x0 x1 x2 y = wholeMix M w b i := by
  obtain ⟨p, q, rfl⟩ : ∃ (p : Fin 2000) (q : Fin 128), y = ix2 p q := ⟨y 0, y 1, eq_ix2 y⟩
  rw [payload_apply]
  unfold wholeMix
  have e0 : (fun k : Fin 128 => x0 (ix2 p k)) = fun k => M (ix2 (i 0 : Fin 50000) k) := funext h0
  have e1 : (fun k : Fin 128 => x1 (ix2 k q)) = fun k => w (ix2 k (i 1 : Fin 128)) := funext h1
  rw [e0, e1]
  exact congrArg _ h2

/-! ## The index maps -/

/-- The windows' index maps over the 25 points: the node sums and the output move down one block of rows per point;
    the weight and the bias row stay at their one block. -/
private theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## Each staged block as entries of its array -/

section Blocks

variable (V : (c : Dev nD) → (b : Ref sig .tc) → Buf (Elt Ideal) ((c : Thread nD τ).loc b)) (c : Dev nD)

/-- The node sums' block at point `t` is rows `2000 t … 2000 t + 1999` of the array. -/
private theorem sums_block (t : Fin cfg1.N) (x : S2000x128.Idx) (i : S50000x128.Idx)
    (hi0 : (i 0).val = t.val * 2000 + (x 0).val) (hi1 : (i 1).val = (x 1).val) :
    (iblk1 V c 0 t : Vec Ideal S2000x128 .f32) x = (V c main_v65 : S50000x128.Idx → EReal) i := by
  obtain ⟨e00, e01, -⟩ := index_maps t
  unfold iblk1
  rw [View.read_apply]
  show (V c main_v65 : S50000x128.Idx → EReal) _ = (V c main_v65 : S50000x128.Idx → EReal) _
  congr 1
  funext a
  apply Fin.ext
  match a with
  | ⟨0, _⟩ => show win1_0.index t (0 : Fin 2) * 2000 + 1 * (x 0).val = (i 0).val; rw [e00, hi0]; omega
  | ⟨1, _⟩ => show win1_0.index t (1 : Fin 2) * 128 + 1 * (x 1).val = (i 1).val; rw [e01, hi1]; omega

/-- The weight's block at every point is the whole weight. -/
private theorem weight_block (t : Fin cfg1.N) (x : S128x128.Idx) :
    (iblk1 V c 1 t : Vec Ideal S128x128 .f32) x = (V c main_arg2 : S128x128.Idx → EReal) x := by
  obtain ⟨-, -, e10, e11, -⟩ := index_maps t
  unfold iblk1
  rw [View.read_apply]
  show (V c main_arg2 : S128x128.Idx → EReal) _ = (V c main_arg2 : S128x128.Idx → EReal) _
  congr 1
  funext a
  apply Fin.ext
  match a with
  | ⟨0, _⟩ => show win1_1.index t (0 : Fin 2) * 128 + 1 * (x 0).val = (x 0).val; rw [e10]; omega
  | ⟨1, _⟩ => show win1_1.index t (1 : Fin 2) * 128 + 1 * (x 1).val = (x 1).val; rw [e11]; omega

/-- The bias row's block at every point is the whole row. -/
private theorem bias_block (t : Fin cfg1.N) (x : S1x128.Idx) :
    (iblk1 V c 2 t : Vec Ideal S1x128 .f32) x = (V c main_v66 : S1x128.Idx → EReal) x := by
  obtain ⟨-, -, -, -, e20, e21, -⟩ := index_maps t
  unfold iblk1
  rw [View.read_apply]
  show (V c main_v66 : S1x128.Idx → EReal) _ = (V c main_v66 : S1x128.Idx → EReal) _
  congr 1
  funext a
  apply Fin.ext
  match a with
  | ⟨0, _⟩ => show win1_2.index t (0 : Fin 2) * 1 + 1 * (x 0).val = (x 0).val; rw [e20]; omega
  | ⟨1, _⟩ => show win1_2.index t (1 : Fin 2) * 128 + 1 * (x 1).val = (x 1).val; rw [e21]; omega

/-! ## What a point writes back, and the array after the region -/

/-- What point `t` writes back is block `t` of the whole-array function of the three arrays as the region finds them. -/
private theorem flushed_eq (t : Fin cfg1.N) :
    (dat1 (F := Ideal) V c).flushed 3 t
      = ((cfg1.win 3).blk t).view.read (Elt Ideal)
          (wholeMix (V c main_v65 : S50000x128.Idx → EReal) (V c main_arg2 : S128x128.Idx → EReal) (V c main_v66 : S1x128.Idx → EReal)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, e30, e31⟩ := index_maps t
  funext y
  show k1_pay1 (iblk1 V c 0 t) (iblk1 V c 1 t) (iblk1 V c 2 t) y
    = wholeMix (V c main_v65 : S50000x128.Idx → EReal) (V c main_arg2 : S128x128.Idx → EReal) (V c main_v66 : S1x128.Idx → EReal)
        (((cfg1.win 3).blk t).view.emb y)
  have hr : ((((cfg1.win 3).blk t).view.emb y : S50000x128.Idx) 0).val = t.val * 2000 + (y 0).val := by
    show win1_3.index t (0 : Fin 2) * 2000 + 1 * (y 0).val = _
    rw [e30]; omega
  have hc : ((((cfg1.win 3).blk t).view.emb y : S50000x128.Idx) 1).val = (y 1).val := by
    show win1_3.index t (1 : Fin 2) * 128 + 1 * (y 1).val = _
    rw [e31]; omega
  refine payload_eq_wholeMix _ _ _ _ _ _ y _ (fun k => ?_) (fun k => ?_) ?_
  · exact sums_block V c t _ _ hr rfl
  · rw [weight_block V c t]
    exact congrArg _ (funext fun a => Fin.ext (by match a with | ⟨0, _⟩ => rfl | ⟨1, _⟩ => exact hc.symm))
  · rw [bias_block V c t]
    exact congrArg _ (funext fun a => Fin.ext (by match a with | ⟨0, _⟩ => rfl | ⟨1, _⟩ => exact hc.symm))

/-- An index of the output array is in point `t`'s block iff each coordinate is in the block's range on its axis. -/
private theorem mem_block (t : Fin cfg1.N) (i : S50000x128.Idx) :
    i ∈ ((cfg1.win 3).blk t).view.set
      ↔ ∀ a : Fin 2, win1_3.index t a * S2000x128.size a ≤ (i a).val ∧ (i a).val < win1_3.index t a * S2000x128.size a + S2000x128.size a := by
  show i ∈ ((View.whole main_v67).slice (win1_3.rect t)).set ↔ _
  rw [View.set_slice_whole, Rect.mem_set_unit]
  exact Iff.rfl

end Blocks

/-- After the region, the output array at `(n, j)` is row `n` of the node sums against column `j` of the weight, plus the bias. -/
theorem mix_array (V : (c : Dev nD) → (b : Ref sig .tc) → Buf (Elt Ideal) ((c : Thread nD τ).loc b)) (c : Dev nD)
    (n : Fin 50000) (j : Fin 128) :
    ((dat1 (F := Ideal) V c).arrAt 3 cfg1.N : S50000x128.Idx → EReal) (ix2 n j)
      = Cert.Spec.mix (fun k => (V c main_v65 : S50000x128.Idx → EReal) (ix2 n k))
          (fun k => (V c main_arg2 : S128x128.Idx → EReal) (ix2 k j))
          ((V c main_v66 : S1x128.Idx → EReal) (ix2 0 j)) := by
  have hN : cfg1.N = 25 := N_1
  -- the point whose block holds row `n`
  have hlt : n.val / 2000 < cfg1.N := by rw [hN]; have := n.isLt; omega
  obtain ⟨-, -, -, -, -, -, e30, e31⟩ := index_maps ⟨n.val / 2000, hlt⟩
  have hmem : ix2 n j ∈ ((cfg1.win 3).blk ⟨n.val / 2000, hlt⟩).view.set := by
    rw [mem_block]
    intro a
    match a with
    | ⟨0, _⟩ =>
      show win1_3.index ⟨n.val / 2000, hlt⟩ (0 : Fin 2) * 2000 ≤ n.val ∧ n.val < win1_3.index ⟨n.val / 2000, hlt⟩ (0 : Fin 2) * 2000 + 2000
      rw [e30]; show n.val / 2000 * 2000 ≤ n.val ∧ n.val < n.val / 2000 * 2000 + 2000; omega
    | ⟨1, _⟩ =>
      show win1_3.index ⟨n.val / 2000, hlt⟩ (1 : Fin 2) * 128 ≤ j.val ∧ j.val < win1_3.index ⟨n.val / 2000, hlt⟩ (1 : Fin 2) * 128 + 128
      rw [e31]; have := j.isLt; omega
  exact (dat1 (F := Ideal) V c).arrAt_apply_of_mem 3
    (wholeMix (V c main_v65 : S50000x128.Idx → EReal) (V c main_arg2 : S128x128.Idx → EReal) (V c main_v66 : S1x128.Idx → EReal))
    (fun t _ => flushed_eq V c t) cfg1.N ⟨n.val / 2000, hlt⟩ (ix2 n j) hlt (flush1_3 _) hmem

end Cert.KernelIdeal.MixRegion

end
-- ==== Proof.FoldEntry.lean ====
/-
  What the first kernel region finds in its four per-edge arrays, read at an edge's row. The host operations before the
  region are, operation for operation, the reference's own: the two row tables (`edge_index` with the self loops
  appended), the wrapped indices, the gathers of positions, features and inverse root degrees. Each gathered array is
  then padded with 688 rows below to a whole number of 4096-row blocks; a row `e < 1650000` of a padded array is row
  `e` of the array it pads. So at such a row the region's inputs are the reference's stages: the two gathered position
  arrays, the gathered feature array, and the product of the two gathered inverse root degrees.
-/
import proofs.«155262_j14190571946497_1_alg».proof.Proof.Gen.KernelIdeal.Frame
import proofs.«155262_j14190571946497_1_alg».proof.Proof.Spec
import proofs.«155262_j14190571946497_1_alg».proof.Proof.KArgs
import proofs.«155262_j14190571946497_1_alg».proof.Proof.RefStages
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FoldEntry

open Cert.KernelIdeal Cert.KernelIdeal.Gen Cert.KernelIdeal.KArgs Cert.Spec

/-! ## The host operations before the first region, stretch by stretch

Each lemma reads one buffer after a run of consecutive host operations, from an arbitrary valuation of the buffers
before the run and for an arbitrary float family. The two programs apply the same operations to the same operands, so a
buffer of the kernel program is the reference's stage once the stage's definition is unfolded; the shared tables (the
two index tables, the inverse root degrees) are carried as the reference's stages and never opened again. -/

section Stretches

variable {F : FTy → Type} [FloatOps F]

/-- After the first two runs the position columns are the reference's. -/
private theorem head_v0 (X : Valuation τ sig (Elt F)) :
    StableHlo.after hostOps0_1 (StableHlo.after hostOps0 X) (Proc.devRef .tc main_v0)
      = Cert.ReferenceIdeal.ReadP.val_main_v0 (F := F) (X (Proc.devRef .tc main_arg0)) := by
  after_results
  rfl

/-- After the first two runs the feature columns are the reference's. -/
private theorem head_v1 (X : Valuation τ sig (Elt F)) :
    StableHlo.after hostOps0_1 (StableHlo.after hostOps0 X) (Proc.devRef .tc main_v1)
      = Cert.ReferenceIdeal.ReadP.val_main_v1 (F := F) (X (Proc.devRef .tc main_arg0)) := by
  after_results
  rfl

/-- After the first two runs the row table (the sources, then the self loops) is the reference's. -/
private theorem head_v5 (X : Valuation τ sig (Elt F)) :
    StableHlo.after hostOps0_1 (StableHlo.after hostOps0 X) (Proc.devRef .tc main_v5)
      = Cert.ReferenceIdeal.ReadP.val_main_v5 (F := F) (X (Proc.devRef .tc main_arg1)) := by
  after_results
  rfl

/-- After the first two runs the column table (the targets, then the self loops) is the reference's. -/
private theorem head_v8 (X : Valuation τ sig (Elt F)) :
    StableHlo.after hostOps0_1 (StableHlo.after hostOps0 X) (Proc.devRef .tc main_v8)
      = Cert.ReferenceIdeal.ReadP.val_main_v8 (F := F) (X (Proc.devRef .tc main_arg1)) := by
  after_results
  rfl

/-- After the first run: where the degree (the scatter of ones at the column table) is positive. -/
private theorem first_v14 (X : Valuation τ sig (Elt F)) :
    StableHlo.after hostOps0 X (Proc.devRef .tc main_v14)
      = Cert.ReferenceIdeal.ReadP.val_main_v14 (F := F) (X (Proc.devRef .tc main_arg1)) := by
  after_results
  rfl

/-- After the first run: the inverse root of the degree. -/
private theorem first_v15 (X : Valuation τ sig (Elt F)) :
    StableHlo.after hostOps0 X (Proc.devRef .tc main_v15)
      = Cert.ReferenceIdeal.ReadP.val_main_v15 (F := F) (X (Proc.devRef .tc main_arg1)) := by
  after_results
  rfl

/-- After the first run: the zero the guarded select falls back to. -/
private theorem first_cst2 (X : Valuation τ sig (Elt F)) :
    StableHlo.after hostOps0 X (Proc.devRef .tc main_cst_2)
      = Cert.ReferenceIdeal.ReadP.val_main_cst_2 (F := F) := by
  after_results
  rfl

/-- The guarded select, from any valuation: the inverse root where the guard holds, the broadcast zero elsewhere. -/
private theorem where_v16 (Y : Valuation τ sig (Elt F)) :
    StableHlo.after hostOps0_1 Y (Proc.devRef .tc main_v16)
      = select (Y (Proc.devRef .tc main_v14) : (⟨S50000, .i1⟩ : BufTy).Contents (Elt F))
          (Y (Proc.devRef .tc main_v15) : (⟨S50000, .f32⟩ : BufTy).Contents (Elt F))
          (broadcastInDim S50000 ![] bcast_S_S50000 (id (Y (Proc.devRef .tc main_cst_2) : (⟨S_, .f32⟩ : BufTy).Contents (Elt F)))) := by
  after_results
  rfl

/-- After the first two runs the inverse root degrees (zero where the degree is not positive) are the reference's. -/
private theorem head_v16 (X : Valuation τ sig (Elt F)) :
    StableHlo.after hostOps0_1 (StableHlo.after hostOps0 X) (Proc.devRef .tc main_v16)
      = Cert.ReferenceIdeal.ReadP.val_main_v16 (F := F) (X (Proc.devRef .tc main_arg1)) := by
  rw [where_v16, first_v14, first_v15, first_cst2]
  rfl

/-- The third run gathers the position columns at the row table wrapped into range: the reference's `coors[row]`. -/
private theorem mid_v23 (Z : Valuation τ sig (Elt F)) (x0 : (⟨S50000x192, .f32⟩ : BufTy).Contents (Elt F)) (x1 : (⟨S2x1600000, .i32⟩ : BufTy).Contents (Elt F))
    (h0 : (Z (Proc.devRef .tc main_v0) : (⟨S50000x64, .f32⟩ : BufTy).Contents (Elt F)) = Cert.ReferenceIdeal.ReadP.val_main_v0 (F := F) x0)
    (h5 : (Z (Proc.devRef .tc main_v5) : (⟨S1650000, .i32⟩ : BufTy).Contents (Elt F)) = Cert.ReferenceIdeal.ReadP.val_main_v5 (F := F) x1) :
    StableHlo.after hostOps0_2 Z (Proc.devRef .tc main_v23) = Cert.ReferenceIdeal.ReadP.val_main_v39 (F := F) x0 x1 := by
  after_results_simp
  rw [h0, h5]
  rfl

/-- … the position columns at the wrapped column table: the reference's `coors[col]`. -/
private theorem mid_v30 (Z : Valuation τ sig (Elt F)) (x0 : (⟨S50000x192, .f32⟩ : BufTy).Contents (Elt F)) (x1 : (⟨S2x1600000, .i32⟩ : BufTy).Contents (Elt F))
    (h0 : (Z (Proc.devRef .tc main_v0) : (⟨S50000x64, .f32⟩ : BufTy).Contents (Elt F)) = Cert.ReferenceIdeal.ReadP.val_main_v0 (F := F) x0)
    (h8 : (Z (Proc.devRef .tc main_v8) : (⟨S1650000, .i32⟩ : BufTy).Contents (Elt F)) = Cert.ReferenceIdeal.ReadP.val_main_v8 (F := F) x1) :
    StableHlo.after hostOps0_2 Z (Proc.devRef .tc main_v30) = Cert.ReferenceIdeal.ReadP.val_main_v46 (F := F) x0 x1 := by
  after_results_simp
  rw [h0, h8]
  rfl

/-- … the feature columns at the wrapped row table: the reference's `feats[row]`. -/
private theorem mid_v37 (Z : Valuation τ sig (Elt F)) (x0 : (⟨S50000x192, .f32⟩ : BufTy).Contents (Elt F)) (x1 : (⟨S2x1600000, .i32⟩ : BufTy).Contents (Elt F))
    (h1 : (Z (Proc.devRef .tc main_v1) : (⟨S50000x128, .f32⟩ : BufTy).Contents (Elt F)) = Cert.ReferenceIdeal.ReadP.val_main_v1 (F := F) x0)
    (h5 : (Z (Proc.devRef .tc main_v5) : (⟨S1650000, .i32⟩ : BufTy).Contents (Elt F)) = Cert.ReferenceIdeal.ReadP.val_main_v5 (F := F) x1) :
    StableHlo.after hostOps0_2 Z (Proc.devRef .tc main_v37) = Cert.ReferenceIdeal.ReadP.val_main_v73 (F := F) x0 x1 := by
  after_results_simp
  rw [h1, h5]
  rfl

/-- … and, as a one-column array, the product of the inverse root degrees gathered at the two wrapped tables. -/
private theorem mid_v53 (Z : Valuation τ sig (Elt F)) (x1 : (⟨S2x1600000, .i32⟩ : BufTy).Contents (Elt F))
    (h16 : (Z (Proc.devRef .tc main_v16) : (⟨S50000, .f32⟩ : BufTy).Contents (Elt F)) = Cert.ReferenceIdeal.ReadP.val_main_v16 (F := F) x1)
    (h5 : (Z (Proc.devRef .tc main_v5) : (⟨S1650000, .i32⟩ : BufTy).Contents (Elt F)) = Cert.ReferenceIdeal.ReadP.val_main_v5 (F := F) x1)
    (h8 : (Z (Proc.devRef .tc main_v8) : (⟨S1650000, .i32⟩ : BufTy).Contents (Elt F)) = Cert.ReferenceIdeal.ReadP.val_main_v8 (F := F) x1) :
    StableHlo.after hostOps0_2 Z (Proc.devRef .tc main_v53)
      = broadcastInDim S1650000x1 ![0] bcast_S1650000_S1650000x1_0
          (mulf (Cert.ReferenceIdeal.ReadP.val_main_v23 (F := F) x1) (Cert.ReferenceIdeal.ReadP.val_main_v31 (F := F) x1)) := by
  after_results_simp
  rw [h16, h5, h8]
  rfl

/-! ### The first three runs together, from the launch valuation -/

private theorem fold_v23 (X : Valuation τ sig (Elt F)) :
    StableHlo.after hostOps0_2 (StableHlo.after hostOps0_1 (StableHlo.after hostOps0 X)) (Proc.devRef .tc main_v23)
      = Cert.ReferenceIdeal.ReadP.val_main_v39 (F := F) (X (Proc.devRef .tc main_arg0)) (X (Proc.devRef .tc main_arg1)) :=
  mid_v23 _ _ _ (head_v0 X) (head_v5 X)

private theorem fold_v30 (X : Valuation τ sig (Elt F)) :
    StableHlo.after hostOps0_2 (StableHlo.after hostOps0_1 (StableHlo.after hostOps0 X)) (Proc.devRef .tc main_v30)
      = Cert.ReferenceIdeal.ReadP.val_main_v46 (F := F) (X (Proc.devRef .tc main_arg0)) (X (Proc.devRef .tc main_arg1)) :=
  mid_v30 _ _ _ (head_v0 X) (head_v8 X)

private theorem fold_v37 (X : Valuation τ sig (Elt F)) :
    StableHlo.after hostOps0_2 (StableHlo.after hostOps0_1 (StableHlo.after hostOps0 X)) (Proc.devRef .tc main_v37)
      = Cert.ReferenceIdeal.ReadP.val_main_v73 (F := F) (X (Proc.devRef .tc main_arg0)) (X (Proc.devRef .tc main_arg1)) :=
  mid_v37 _ _ _ (head_v1 X) (head_v5 X)

private theorem fold_v53 (X : Valuation τ sig (Elt F)) :
    StableHlo.after hostOps0_2 (StableHlo.after hostOps0_1 (StableHlo.after hostOps0 X)) (Proc.devRef .tc main_v53)
      = broadcastInDim S1650000x1 ![0] bcast_S1650000_S1650000x1_0
          (mulf (Cert.ReferenceIdeal.ReadP.val_main_v23 (F := F) (X (Proc.devRef .tc main_arg1))) (Cert.ReferenceIdeal.ReadP.val_main_v31 (F := F) (X (Proc.devRef .tc main_arg1)))) :=
  mid_v53 _ _ (head_v16 X) (head_v5 X) (head_v8 X)

/-! ### The remaining runs: each gathered array padded with 688 rows below

The padding adds nothing above or beside the operand, so row `e < 1650000` of the padded array is row `e` of the
operand, whatever the padding value; the runs after a pad write other buffers. -/

/-- Row `e` of the first padded array is row `e` of the array it pads. -/
private theorem tail_v54 (Z : Valuation τ sig (Elt F)) (e : Fin 1650000) (d : Fin 64) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v54)
        : (⟨S1650688x64, .f32⟩ : BufTy).Contents (Elt F)) (ix2 (up e) d)
      = (Z (Proc.devRef .tc main_v23) : (⟨S1650000x64, .f32⟩ : BufTy).Contents (Elt F)) (ix2 e d) := by
  have h : StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v54)
      = pad S1650688x64 ![0, 0] ![688, 0] ![0, 0] (Z (Proc.devRef .tc main_v23) : (⟨S1650000x64, .f32⟩ : BufTy).Contents (Elt F))
          (sitofp .f32 ((Z (Proc.devRef .tc main_c_12) : (⟨S_, .i32⟩ : BufTy).Contents (Elt F)))) pads_S1650000x64_S1650688x64_06880_000 h_S_ := by
    after_results
    rfl
  rw [h]
  exact pad_apply_of_inside ![0, 0] ![688, 0] ![0, 0] _ _ pads_S1650000x64_S1650688x64_06880_000 h_S_ (ix2 (up e) d) (ix2 e d)
    (fun a => match a with
      | ⟨0, _⟩ => by show e.val = 0 + e.val * (0 + 1); omega
      | ⟨1, _⟩ => by show d.val = 0 + d.val * (0 + 1); omega)

/-- Row `e` of the second padded array is row `e` of the array it pads. -/
private theorem tail_v55 (Z : Valuation τ sig (Elt F)) (e : Fin 1650000) (d : Fin 64) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v55)
        : (⟨S1650688x64, .f32⟩ : BufTy).Contents (Elt F)) (ix2 (up e) d)
      = (Z (Proc.devRef .tc main_v30) : (⟨S1650000x64, .f32⟩ : BufTy).Contents (Elt F)) (ix2 e d) := by
  have h : StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v55)
      = pad S1650688x64 ![0, 0] ![688, 0] ![0, 0] (Z (Proc.devRef .tc main_v30) : (⟨S1650000x64, .f32⟩ : BufTy).Contents (Elt F))
          (sitofp .f32 ((constantI S_ 32 0#32 : (⟨S_, .i32⟩ : BufTy).Contents (Elt F)))) pads_S1650000x64_S1650688x64_06880_000 h_S_ := by
    after_results
    rfl
  rw [h]
  exact pad_apply_of_inside ![0, 0] ![688, 0] ![0, 0] _ _ pads_S1650000x64_S1650688x64_06880_000 h_S_ (ix2 (up e) d) (ix2 e d)
    (fun a => match a with
      | ⟨0, _⟩ => by show e.val = 0 + e.val * (0 + 1); omega
      | ⟨1, _⟩ => by show d.val = 0 + d.val * (0 + 1); omega)

/-- Row `e` of the third padded array is row `e` of the array it pads. -/
private theorem tail_v56 (Z : Valuation τ sig (Elt F)) (e : Fin 1650000) (j : Fin 128) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v56)
        : (⟨S1650688x128, .f32⟩ : BufTy).Contents (Elt F)) (ix2 (up e) j)
      = (Z (Proc.devRef .tc main_v37) : (⟨S1650000x128, .f32⟩ : BufTy).Contents (Elt F)) (ix2 e j) := by
  have h : StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v56)
      = pad S1650688x128 ![0, 0] ![688, 0] ![0, 0] (Z (Proc.devRef .tc main_v37) : (⟨S1650000x128, .f32⟩ : BufTy).Contents (Elt F))
          (sitofp .f32 ((constantI S_ 32 0#32 : (⟨S_, .i32⟩ : BufTy).Contents (Elt F)))) pads_S1650000x128_S1650688x128_06880_000 h_S_ := by
    after_results
    rfl
  rw [h]
  exact pad_apply_of_inside ![0, 0] ![688, 0] ![0, 0] _ _ pads_S1650000x128_S1650688x128_06880_000 h_S_ (ix2 (up e) j) (ix2 e j)
    (fun a => match a with
      | ⟨0, _⟩ => by show e.val = 0 + e.val * (0 + 1); omega
      | ⟨1, _⟩ => by show j.val = 0 + j.val * (0 + 1); omega)

/-- Row `e` of the padded column is row `e` of the column it pads. -/
private theorem tail_v57 (Z : Valuation τ sig (Elt F)) (e : Fin 1650000) (z : Fin 1) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v57)
        : (⟨S1650688x1, .f32⟩ : BufTy).Contents (Elt F)) (ix2 (up e) z)
      = (Z (Proc.devRef .tc main_v53) : (⟨S1650000x1, .f32⟩ : BufTy).Contents (Elt F)) (ix2 e z) := by
  have h : StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (Z)))))))) (Proc.devRef .tc main_v57)
      = pad S1650688x1 ![0, 0] ![688, 0] ![0, 0] (Z (Proc.devRef .tc main_v53) : (⟨S1650000x1, .f32⟩ : BufTy).Contents (Elt F))
          (sitofp .f32 ((constantI S_ 32 0#32 : (⟨S_, .i32⟩ : BufTy).Contents (Elt F)))) pads_S1650000x1_S1650688x1_06880_000 h_S_ := by
    after_results
    rfl
  rw [h]
  exact pad_apply_of_inside ![0, 0] ![688, 0] ![0, 0] _ _ pads_S1650000x1_S1650688x1_06880_000 h_S_ (ix2 (up e) z) (ix2 e z)
    (fun a => match a with
      | ⟨0, _⟩ => by show e.val = 0 + e.val * (0 + 1); omega
      | ⟨1, _⟩ => by show z.val = 0 + z.val * (0 + 1); omega)

end Stretches

variable (m : (ℓ : Loc nD τ sig) → Buf (Elt Ideal) ℓ) (ρ : Dev nD → PrngReg)

/-- Row `e` of the first padded position array is row `e` of `coors[row]`. -/
theorem entry54 (c : Dev nD) (e : Fin 1650000) (d : Fin 64) :
    (V11 m ρ c main_v54 : S1650688x64.Idx → EReal) (ix2 (up e) d)
      = Cert.ReferenceIdeal.ReadP.val_main_v39 (F := Ideal) (a0 m c) (a1 m c) (ix2 e d) := by
  show (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))) (Proc.devRef .tc main_v54)
      : (⟨S1650688x64, .f32⟩ : BufTy).Contents (Elt Ideal)) (ix2 (up e) d) = _
  rw [tail_v54 (F := Ideal), fold_v23 (F := Ideal)]

/-- Row `e` of the second padded position array is row `e` of `coors[col]`. -/
theorem entry55 (c : Dev nD) (e : Fin 1650000) (d : Fin 64) :
    (V11 m ρ c main_v55 : S1650688x64.Idx → EReal) (ix2 (up e) d)
      = Cert.ReferenceIdeal.ReadP.val_main_v46 (F := Ideal) (a0 m c) (a1 m c) (ix2 e d) := by
  show (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))) (Proc.devRef .tc main_v55)
      : (⟨S1650688x64, .f32⟩ : BufTy).Contents (Elt Ideal)) (ix2 (up e) d) = _
  rw [tail_v55 (F := Ideal), fold_v30 (F := Ideal)]

/-- Row `e` of the padded feature array is row `e` of `feats[row]`. -/
theorem entry56 (c : Dev nD) (e : Fin 1650000) (j : Fin 128) :
    (V11 m ρ c main_v56 : S1650688x128.Idx → EReal) (ix2 (up e) j)
      = Cert.ReferenceIdeal.ReadP.val_main_v73 (F := Ideal) (a0 m c) (a1 m c) (ix2 e j) := by
  show (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))) (Proc.devRef .tc main_v56)
      : (⟨S1650688x128, .f32⟩ : BufTy).Contents (Elt Ideal)) (ix2 (up e) j) = _
  rw [tail_v56 (F := Ideal), fold_v37 (F := Ideal)]

/-- Row `e` of the padded edge-weight column is `dinv[row e] · dinv[col e]`. -/
theorem entry57 (c : Dev nD) (e : Fin 1650000) :
    (V11 m ρ c main_v57 : S1650688x1.Idx → EReal) (ix2 (up e) 0)
      = Cert.ReferenceIdeal.ReadP.val_main_v23 (F := Ideal) (a1 m c) (ix1 e) * Cert.ReferenceIdeal.ReadP.val_main_v31 (F := Ideal) (a1 m c) (ix1 e) := by
  show (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))) (Proc.devRef .tc main_v57)
      : (⟨S1650688x1, .f32⟩ : BufTy).Contents (Elt Ideal)) (ix2 (up e) 0) = _
  rw [tail_v57 (F := Ideal), fold_v53 (F := Ideal),
    broadcastInDim_apply _ bcast_S1650000_S1650000x1_0 _ (ix2 e 0) (ix1 e) (fun a => match a with
      | ⟨0, _⟩ => by show e.val = if (1650000 : Nat) = 1 then 0 else e.val; rw [if_neg (by decide)])]
  -- the launch valuation at the second argument is the argument itself, so both sides name the same two gathered
  -- arrays; with them named, what is left is that a pointwise product read at an index is the product of the reads
  generalize Cert.ReferenceIdeal.ReadP.val_main_v23 (F := Ideal) (a1 m c) = A
  generalize Cert.ReferenceIdeal.ReadP.val_main_v31 (F := Ideal) (a1 m c) = B
  exact mulf_apply (s := S1650000) (φ := .f32) A B (ix1 e)

end Cert.KernelIdeal.FoldEntry

end
-- ==== Proof.FoldRest.lean ====
/-
  The rest of the host side of the kernel program. Before the first region: the four small parameter arrays it stages
  are the arguments themselves, re-laid as rows. Between the regions: the message array is cut back to its first 1650000
  rows and summed into the nodes by the same scatter, over the same column table and the same zero array, as the
  reference's; the weight is the argument and the bias a row. After the second region: the result is the position
  columns beside the second region's output. Each region's output array is what its write-backs leave.
-/
import proofs.«155262_j14190571946497_1_alg».proof.Proof.Gen.KernelIdeal.Frame
import proofs.«155262_j14190571946497_1_alg».proof.Proof.Spec
import proofs.«155262_j14190571946497_1_alg».proof.Proof.KArgs
import proofs.«155262_j14190571946497_1_alg».proof.Proof.RefStages
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FoldRest

open Cert.KernelIdeal Cert.KernelIdeal.Gen Cert.KernelIdeal.KArgs Cert.Spec

variable (m : (ℓ : Loc nD τ sig) → Buf (Elt Ideal) ℓ) (ρ : Dev nD → PrngReg)

/-! ## Buffers a stretch of host operations leaves alone

Every host operation writes exactly one buffer, so a stretch changes a buffer only if one of its operations names that
buffer as its result. -/

/-- Closes `StableHlo.after ops V b = V b` for a stretch `ops` of the program none of whose operations writes the
    buffer `b` of the reference `r`: each operation writes one buffer, and that one is another reference. -/
local macro "stretch_keeps " r:term : tactic =>
  `(tactic| (refine StableHlo.after_of_forall_not_mem (b := Proc.devRef .tc $r) _ _ (List.forall_iff_forall_mem.mp ?_)
             simp only [hostOps0, hostOps0_1, hostOps0_2, hostOps0_3, hostOps0_4, hostOps0_5, hostOps0_6, hostOps0_7,
               hostOps0_8, hostOps0_9, hostOps0_10, hostOps1, hostOps2, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

/-! ## The arguments are never written

No host operation has an argument as its result, and a region leaves its input arrays as it found them. So from any
boundary on, an argument's buffer holds what it holds at the end of the program, which is the launch contents. -/

private theorem W13_arg2 (c : Dev nD) : W13 m ρ c (Proc.devRef .tc main_arg2) = m ((c : Thread nD τ).loc main_arg2) :=
  calc W13 m ρ c (Proc.devRef .tc main_arg2)
    _ = W14 m ρ c (Proc.devRef .tc main_arg2) := ((W14_arr m ρ c 1).trans (((dat1 (V13 m ρ) c).arrAt_in 1 rfl _).trans (A_eq1 (V13 m ρ) c 1))).symm
    _ = W15 m ρ c (Proc.devRef .tc main_arg2) := Eq.symm (by stretch_keeps main_arg2)
    _ = m ((c : Thread nD τ).loc main_arg2) := W15_main_arg2 m ρ c

private theorem W13_arg3 (c : Dev nD) : W13 m ρ c (Proc.devRef .tc main_arg3) = m ((c : Thread nD τ).loc main_arg3) :=
  calc W13 m ρ c (Proc.devRef .tc main_arg3)
    _ = W14 m ρ c (Proc.devRef .tc main_arg3) := (W14_of_ne m ρ c main_arg3 (by decide)).symm
    _ = W15 m ρ c (Proc.devRef .tc main_arg3) := Eq.symm (by stretch_keeps main_arg3)
    _ = m ((c : Thread nD τ).loc main_arg3) := W15_main_arg3 m ρ c

private theorem W13_arg4 (c : Dev nD) : W13 m ρ c (Proc.devRef .tc main_arg4) = m ((c : Thread nD τ).loc main_arg4) :=
  calc W13 m ρ c (Proc.devRef .tc main_arg4)
    _ = W14 m ρ c (Proc.devRef .tc main_arg4) := (W14_of_ne m ρ c main_arg4 (by decide)).symm
    _ = W15 m ρ c (Proc.devRef .tc main_arg4) := Eq.symm (by stretch_keeps main_arg4)
    _ = m ((c : Thread nD τ).loc main_arg4) := W15_main_arg4 m ρ c

private theorem W13_arg5 (c : Dev nD) : W13 m ρ c (Proc.devRef .tc main_arg5) = m ((c : Thread nD τ).loc main_arg5) :=
  calc W13 m ρ c (Proc.devRef .tc main_arg5)
    _ = W14 m ρ c (Proc.devRef .tc main_arg5) := (W14_of_ne m ρ c main_arg5 (by decide)).symm
    _ = W15 m ρ c (Proc.devRef .tc main_arg5) := Eq.symm (by stretch_keeps main_arg5)
    _ = m ((c : Thread nD τ).loc main_arg5) := W15_main_arg5 m ρ c

private theorem W13_arg6 (c : Dev nD) : W13 m ρ c (Proc.devRef .tc main_arg6) = m ((c : Thread nD τ).loc main_arg6) :=
  calc W13 m ρ c (Proc.devRef .tc main_arg6)
    _ = W14 m ρ c (Proc.devRef .tc main_arg6) := (W14_of_ne m ρ c main_arg6 (by decide)).symm
    _ = W15 m ρ c (Proc.devRef .tc main_arg6) := Eq.symm (by stretch_keeps main_arg6)
    _ = m ((c : Thread nD τ).loc main_arg6) := W15_main_arg6 m ρ c

private theorem W13_arg7 (c : Dev nD) : W13 m ρ c (Proc.devRef .tc main_arg7) = m ((c : Thread nD τ).loc main_arg7) :=
  calc W13 m ρ c (Proc.devRef .tc main_arg7)
    _ = W14 m ρ c (Proc.devRef .tc main_arg7) := (W14_of_ne m ρ c main_arg7 (by decide)).symm
    _ = W15 m ρ c (Proc.devRef .tc main_arg7) := Eq.symm (by stretch_keeps main_arg7)
    _ = m ((c : Thread nD τ).loc main_arg7) := W15_main_arg7 m ρ c

private theorem W11_arg4 (c : Dev nD) : W11 m ρ c (Proc.devRef .tc main_arg4) = m ((c : Thread nD τ).loc main_arg4) :=
  calc W11 m ρ c (Proc.devRef .tc main_arg4)
    _ = W12 m ρ c (Proc.devRef .tc main_arg4) := ((W12_arr m ρ c 4).trans (((dat0 (V11 m ρ) c).arrAt_in 4 rfl _).trans (A_eq0 (V11 m ρ) c 4))).symm
    _ = W13 m ρ c (Proc.devRef .tc main_arg4) := Eq.symm (by stretch_keeps main_arg4)
    _ = m ((c : Thread nD τ).loc main_arg4) := W13_arg4 m ρ c

private theorem W11_arg5 (c : Dev nD) : W11 m ρ c (Proc.devRef .tc main_arg5) = m ((c : Thread nD τ).loc main_arg5) :=
  calc W11 m ρ c (Proc.devRef .tc main_arg5)
    _ = W12 m ρ c (Proc.devRef .tc main_arg5) := (W12_of_ne m ρ c main_arg5 (by decide)).symm
    _ = W13 m ρ c (Proc.devRef .tc main_arg5) := Eq.symm (by stretch_keeps main_arg5)
    _ = m ((c : Thread nD τ).loc main_arg5) := W13_arg5 m ρ c

private theorem W11_arg6 (c : Dev nD) : W11 m ρ c (Proc.devRef .tc main_arg6) = m ((c : Thread nD τ).loc main_arg6) :=
  calc W11 m ρ c (Proc.devRef .tc main_arg6)
    _ = W12 m ρ c (Proc.devRef .tc main_arg6) := (W12_of_ne m ρ c main_arg6 (by decide)).symm
    _ = W13 m ρ c (Proc.devRef .tc main_arg6) := Eq.symm (by stretch_keeps main_arg6)
    _ = m ((c : Thread nD τ).loc main_arg6) := W13_arg6 m ρ c

private theorem W11_arg7 (c : Dev nD) : W11 m ρ c (Proc.devRef .tc main_arg7) = m ((c : Thread nD τ).loc main_arg7) :=
  calc W11 m ρ c (Proc.devRef .tc main_arg7)
    _ = W12 m ρ c (Proc.devRef .tc main_arg7) := (W12_of_ne m ρ c main_arg7 (by decide)).symm
    _ = W13 m ρ c (Proc.devRef .tc main_arg7) := Eq.symm (by stretch_keeps main_arg7)
    _ = m ((c : Thread nD τ).loc main_arg7) := W13_arg7 m ρ c

private theorem W10_arg5 (c : Dev nD) : W10 m ρ c (Proc.devRef .tc main_arg5) = m ((c : Thread nD τ).loc main_arg5) :=
  (Eq.symm (by stretch_keeps main_arg5)).trans (W11_arg5 m ρ c)

private theorem W10_arg6 (c : Dev nD) : W10 m ρ c (Proc.devRef .tc main_arg6) = m ((c : Thread nD τ).loc main_arg6) :=
  (Eq.symm (by stretch_keeps main_arg6)).trans (W11_arg6 m ρ c)

private theorem W10_arg7 (c : Dev nD) : W10 m ρ c (Proc.devRef .tc main_arg7) = m ((c : Thread nD τ).loc main_arg7) :=
  (Eq.symm (by stretch_keeps main_arg7)).trans (W11_arg7 m ρ c)

private theorem W12_arg3 (c : Dev nD) : W12 m ρ c (Proc.devRef .tc main_arg3) = m ((c : Thread nD τ).loc main_arg3) :=
  (Eq.symm (by stretch_keeps main_arg3)).trans (W13_arg3 m ρ c)

/-! ## The first region's parameter arrays -/

theorem entry4 (c : Dev nD) : (V11 m ρ c main_arg4 : S1x32.Idx → EReal) = a4 m c := W11_arg4 m ρ c

/-- `[32] → [1, 32]`: entry `(0, k)` of the row is entry `k` of the vector. -/
theorem entry58 (c : Dev nD) (k : Fin 32) : (V11 m ρ c main_v58 : S1x32.Idx → EReal) (ix2 0 k) = a5 m c (ix1 k) := by
  have e : (V11 m ρ c main_v58 : S1x32.Idx → EReal)
      = shapeCast S1x32 (W10 m ρ c (Proc.devRef .tc main_arg5) : S32.Idx → EReal) shapeCasts_S32_S1x32 := by
    show StableHlo.after hostOps0_10 (W10 m ρ c) (Proc.devRef .tc main_v58) = _
    generalize W10 m ρ c = V
    dsimp only [hostOps0_10]
    after_results
    rfl
  rw [e, W10_arg5]
  exact shapeCast_a_1a_apply _ _ 0 k

/-- `[32, 1] → [1, 32]`: both `(k, 0)` of the column and `(0, k)` of the row sit at row-major position `k`. -/
theorem entry59 (c : Dev nD) (k : Fin 32) : (V11 m ρ c main_v59 : S1x32.Idx → EReal) (ix2 0 k) = a6 m c (ix2 k 0) := by
  have e : (V11 m ρ c main_v59 : S1x32.Idx → EReal)
      = shapeCast S1x32 (W10 m ρ c (Proc.devRef .tc main_arg6) : S32x1.Idx → EReal) shapeCasts_S32x1_S1x32 := by
    show StableHlo.after hostOps0_10 (W10 m ρ c) (Proc.devRef .tc main_v59) = _
    generalize W10 m ρ c = V
    dsimp only [hostOps0_10]
    after_results
    rfl
  rw [e, W10_arg6]
  refine shapeCast_apply _ _ _ (ix2 k 0) ?_
  rw [Shape.rowMajor_val_two, Shape.rowMajor_val_two]
  show k.val * 1 + 0 = 0 * 32 + k.val
  omega

theorem entry60 (c : Dev nD) : (V11 m ρ c main_v60 : S1x1.Idx → EReal) (ix2 0 0) = a7 m c (ix1 0) := by
  have e : (V11 m ρ c main_v60 : S1x1.Idx → EReal)
      = shapeCast S1x1 (W10 m ρ c (Proc.devRef .tc main_arg7) : S1.Idx → EReal) shapeCasts_S1_S1x1 := by
    show StableHlo.after hostOps0_10 (W10 m ρ c) (Proc.devRef .tc main_v60) = _
    generalize W10 m ρ c = V
    dsimp only [hostOps0_10]
    after_results
    rfl
  rw [e, W10_arg7]
  exact shapeCast_a_1a_apply _ _ 0 0

/-! ## Between the regions -/

/-- The first region's output array is what its write-backs leave. -/
theorem v61_eq (c : Dev nD) (i : S1650688x128.Idx) :
    (V12 m ρ c main_v61 : S1650688x128.Idx → EReal) i = ((dat0 (F := Ideal) (V11 m ρ) c).arrAt 8 cfg0.N : S1650688x128.Idx → EReal) i :=
  congrFun (W12_arr m ρ c 8) i

/-- The message array cut back to the edges: the first 1650000 rows of the first region's output. -/
def msgArr (c : Dev nD) : (⟨S1650000x128, .f32⟩ : BufTy).Contents (Elt Ideal) :=
  extractStridedSlice S1650000x128 ![0, 0] (V12 m ρ c main_v61) slices_S1650688x128_S1650000x128_0_0

theorem msgArr_apply (c : Dev nD) (e : Fin 1650000) (j : Fin 128) :
    msgArr m ρ c (ix2 e j) = (V12 m ρ c main_v61 : S1650688x128.Idx → EReal) (ix2 (up e) j) := by
  unfold msgArr
  generalize (V12 m ρ c main_v61 : S1650688x128.Idx → EReal) = x
  exact extractStridedSlice_apply ![0, 0] x slices_S1650688x128_S1650000x128_0_0 (ix2 e j) (ix2 (up e) j) (fun a => match a with
    | ⟨0, _⟩ => by show e.val = 0 + e.val; omega
    | ⟨1, _⟩ => by show j.val = 0 + j.val; omega)

/-- The reference's scatter, zero array and column table, applied to `msgArr`. -/
def nodeSums (c : Dev nD) : (⟨S50000x128, .f32⟩ : BufTy).Contents (Elt Ideal) :=
  Host.scatterAdd (F := Ideal) (φ := .f32) Cert.ReferenceIdeal.scatter_S50000x128_S1650000x1_S1650000x128_1_0_0_1
    (Cert.ReferenceIdeal.ReadP.val_main_v76 (F := Ideal)) (Cert.ReferenceIdeal.ReadP.val_main_v77 (F := Ideal) (a1 m c)) (msgArr m ρ c)

/-- The column table (each edge's target node, then every node once): the first stretch's second concatenate, over
    row 1 of the edge index; nothing later writes it. -/
private theorem W12_v8 (c : Dev nD) : (W12 m ρ c (Proc.devRef .tc main_v8) : S1650000.Idx → Elt Ideal .i32)
    = concatenate S1650000 0 [⟨S1600000, shapeCast S1600000 (extractStridedSlice S1x1600000 ![1, 0] (m ((c : Thread nD τ).loc main_arg1) : S2x1600000.Idx → Elt Ideal .i32) slices_S2x1600000_S1x1600000_1_0) shapeCasts_S1x1600000_S1600000⟩,
        ⟨S50000, iotaInDim S50000 32 0⟩] concatenates_S1600000_S50000_S1650000_d0 :=
  calc W12 m ρ c (Proc.devRef .tc main_v8)
    _ = W11 m ρ c (Proc.devRef .tc main_v8) := W12_of_ne m ρ c main_v8 (by decide)
    _ = W10 m ρ c (Proc.devRef .tc main_v8) := by stretch_keeps main_v8
    _ = W9 m ρ c (Proc.devRef .tc main_v8) := by stretch_keeps main_v8
    _ = W8 m ρ c (Proc.devRef .tc main_v8) := by stretch_keeps main_v8
    _ = W7 m ρ c (Proc.devRef .tc main_v8) := by stretch_keeps main_v8
    _ = W6 m ρ c (Proc.devRef .tc main_v8) := by stretch_keeps main_v8
    _ = W5 m ρ c (Proc.devRef .tc main_v8) := by stretch_keeps main_v8
    _ = W4 m ρ c (Proc.devRef .tc main_v8) := by stretch_keeps main_v8
    _ = W3 m ρ c (Proc.devRef .tc main_v8) := by stretch_keeps main_v8
    _ = W2 m ρ c (Proc.devRef .tc main_v8) := by stretch_keeps main_v8
    _ = W1 m ρ c (Proc.devRef .tc main_v8) := by stretch_keeps main_v8
    _ = _ := by
      show StableHlo.after hostOps0 (W0 m ρ c) (Proc.devRef .tc main_v8) = _
      generalize hV : W0 m ρ c = V
      have h1 : V (Proc.devRef .tc main_arg1) = m ((c : Thread nD τ).loc main_arg1) := by rw [← hV]
      dsimp only [hostOps0]
      after_results
      rw [h1]
      rfl

/-- The second stretch's scatter, read off its operations: the zero array, the column table as a column, the cut-back
    message array. -/
private theorem W13_v65 (c : Dev nD) : (V13 m ρ c main_v65 : S50000x128.Idx → EReal)
    = Host.scatterAdd scatter_S50000x128_S1650000x1_S1650000x128_1_0_0_1
        (broadcastInDim S50000x128 ![] bcast_S_S50000x128 (constant (F := Ideal) S_ .f32 0x00000000#32))
        (broadcastInDim S1650000x1 ![0] bcast_S1650000_S1650000x1_0 (W12 m ρ c (Proc.devRef .tc main_v8) : S1650000.Idx → Elt Ideal .i32))
        (msgArr m ρ c) := by
  unfold msgArr
  show StableHlo.after hostOps1 (W12 m ρ c) (Proc.devRef .tc main_v65) = _
  dsimp only [hostOps1]
  after_results

/-- The node sums the second region stages are that scatter. -/
theorem mid65 (c : Dev nD) : (V13 m ρ c main_v65 : S50000x128.Idx → EReal) = nodeSums m ρ c := by
  rw [W13_v65, W12_v8]
  unfold nodeSums Cert.ReferenceIdeal.ReadP.val_main_v76 Cert.ReferenceIdeal.ReadP.val_main_cst_15 Cert.ReferenceIdeal.ReadP.val_main_v77 Cert.ReferenceIdeal.ReadP.val_main_v8 Cert.ReferenceIdeal.ReadP.val_main_v7 Cert.ReferenceIdeal.ReadP.val_main_v6 Cert.ReferenceIdeal.ReadP.val_main_v2
  rfl

theorem mid2 (c : Dev nD) : (V13 m ρ c main_arg2 : S128x128.Idx → EReal) = a2 m c := W13_arg2 m ρ c

/-- `[128] → [1, 128]`: entry `(0, j)` of the row is entry `j` of the vector. -/
theorem mid66 (c : Dev nD) (j : Fin 128) : (V13 m ρ c main_v66 : S1x128.Idx → EReal) (ix2 0 j) = a3 m c (ix1 j) := by
  have e : (V13 m ρ c main_v66 : S1x128.Idx → EReal)
      = shapeCast S1x128 (W12 m ρ c (Proc.devRef .tc main_arg3) : S128.Idx → EReal) shapeCasts_S128_S1x128 := by
    show StableHlo.after hostOps1 (W12 m ρ c) (Proc.devRef .tc main_v66) = _
    dsimp only [hostOps1]
    after_results
    rfl
  rw [e, W12_arg3]
  exact shapeCast_a_1a_apply _ _ 0 j

/-! ## After the second region -/

/-- The second region's output array is what its write-backs leave. -/
theorem v67_eq (c : Dev nD) (i : S50000x128.Idx) :
    (V14 m ρ c main_v67 : S50000x128.Idx → EReal) i = ((dat1 (F := Ideal) (V13 m ρ) c).arrAt 3 cfg1.N : S50000x128.Idx → EReal) i :=
  congrFun (W14_arr m ρ c 3) i

/-- The position columns: written once, by the first stretch's first slice, and by nothing after. -/
private theorem W14_v0 (c : Dev nD) : (W14 m ρ c (Proc.devRef .tc main_v0) : S50000x64.Idx → EReal)
    = extractStridedSlice S50000x64 ![0, 0] (m ((c : Thread nD τ).loc main_arg0) : S50000x192.Idx → EReal) slices_S50000x192_S50000x64_0_0 :=
  calc W14 m ρ c (Proc.devRef .tc main_v0)
    _ = W13 m ρ c (Proc.devRef .tc main_v0) := W14_of_ne m ρ c main_v0 (by decide)
    _ = W12 m ρ c (Proc.devRef .tc main_v0) := by stretch_keeps main_v0
    _ = W11 m ρ c (Proc.devRef .tc main_v0) := W12_of_ne m ρ c main_v0 (by decide)
    _ = W10 m ρ c (Proc.devRef .tc main_v0) := by stretch_keeps main_v0
    _ = W9 m ρ c (Proc.devRef .tc main_v0) := by stretch_keeps main_v0
    _ = W8 m ρ c (Proc.devRef .tc main_v0) := by stretch_keeps main_v0
    _ = W7 m ρ c (Proc.devRef .tc main_v0) := by stretch_keeps main_v0
    _ = W6 m ρ c (Proc.devRef .tc main_v0) := by stretch_keeps main_v0
    _ = W5 m ρ c (Proc.devRef .tc main_v0) := by stretch_keeps main_v0
    _ = W4 m ρ c (Proc.devRef .tc main_v0) := by stretch_keeps main_v0
    _ = W3 m ρ c (Proc.devRef .tc main_v0) := by stretch_keeps main_v0
    _ = W2 m ρ c (Proc.devRef .tc main_v0) := by stretch_keeps main_v0
    _ = W1 m ρ c (Proc.devRef .tc main_v0) := by stretch_keeps main_v0
    _ = _ := by
      show StableHlo.after hostOps0 (W0 m ρ c) (Proc.devRef .tc main_v0) = _
      generalize hV : W0 m ρ c = V
      have h0 : V (Proc.devRef .tc main_arg0) = m ((c : Thread nD τ).loc main_arg0) := by rw [← hV]
      dsimp only [hostOps0]
      after_results
      rw [h0]

/-- The last stretch's one concatenate, read off its operation. -/
private theorem W15_v68 (c : Dev nD) : (W15 m ρ c (Proc.devRef .tc main_v68) : S50000x192.Idx → EReal)
    = concatenate S50000x192 1 [⟨S50000x64, (W14 m ρ c (Proc.devRef .tc main_v0) : S50000x64.Idx → EReal)⟩,
        ⟨S50000x128, (V14 m ρ c main_v67 : S50000x128.Idx → EReal)⟩] concatenates_S50000x64_S50000x128_S50000x192_d1 := by
  show StableHlo.after hostOps2 (W14 m ρ c) (Proc.devRef .tc main_v68) = _
  dsimp only [hostOps2]
  after_results

/-- The result: the position columns (the reference's first stage) beside the second region's output. -/
theorem exit68 (c : Dev nD) :
    (W15 m ρ c (Proc.devRef .tc main_v68) : S50000x192.Idx → EReal)
      = concatenate S50000x192 1 [⟨S50000x64, Cert.ReferenceIdeal.ReadP.val_main_v0 (F := Ideal) (a0 m c)⟩,
          ⟨S50000x128, (V14 m ρ c main_v67 : S50000x128.Idx → EReal)⟩] concatenates_S50000x64_S50000x128_S50000x192_d1 := by
  rw [W15_v68, W14_v0]
  unfold Cert.ReferenceIdeal.ReadP.val_main_v0
  rfl

end Cert.KernelIdeal.FoldRest

end
-- ==== Proof.RefSpec.lean ====
/-
  The reference's per-edge message and its final mix, read at an entry. The message stage is a product of a broadcast
  column and the gathered features; the column is the logistic function, spelt as `1 / (1 + exp (-z))`, of the logit
  `z`, times the edge weight; `z` is two small matrix products with their biases over the row sum of the squared
  differences of the two gathered position arrays. On the extended reals a product over one contracted position is that
  product, a row sum from zero is the sum, `1 / (1 + exp (-z))` is the logistic function by definition, and the edge
  weight `dinv[row] · 1 · dinv[col]` is `dinv[row] · dinv[col]`. The gathered arrays stay as they are: both programs
  gather the same way.
-/
import proofs.«155262_j14190571946497_1_alg».proof.Proof.Spec
import proofs.«155262_j14190571946497_1_alg».proof.Proof.LibPlainDot
import proofs.«155262_j14190571946497_1_alg».proof.Proof.RefStages
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefSpec

open Cert.ReferenceIdeal Cert.ReferenceIdeal.ReadP

variable (x0 : (⟨S50000x192, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S1x32, .f32⟩ : BufTy).Contents (Elt Ideal)) (x5 : (⟨S32, .f32⟩ : BufTy).Contents (Elt Ideal))
  (x6 : (⟨S32x1, .f32⟩ : BufTy).Contents (Elt Ideal)) (x7 : (⟨S1, .f32⟩ : BufTy).Contents (Elt Ideal))

/-! ### The squared distance

The row sum starts from the constant zero, so it is the plain sum of the 64 squared differences. -/

private theorem dist_ref (e : Fin 1650000) :
    val_main_v49 (F := Ideal) x0 x1 (ix1 e) = Cert.Spec.dist2 (fun d => val_main_v39 (F := Ideal) x0 x1 (ix2 e d)) (fun d => val_main_v46 (F := Ideal) x0 x1 (ix2 e d)) := by
  rw [val_main_v49_apply, val_main_cst_10_apply, Ideal.ofBits_def, Ideal.ofBits_zero_f32, zero_add]
  unfold Cert.Spec.dist2
  refine Finset.sum_congr rfl fun d _ => ?_
  rw [show idx_main_v49 (ix1 e) d = ix2 e d from funext fun a => Fin.ext (by match a with | ⟨0, _⟩ => rfl | ⟨1, _⟩ => rfl), val_main_v48_apply, val_main_v47_apply]
  rfl

/-! ### The hidden layer

A product over one contracted position is that product: entry `k` of the hidden row is the squared distance times
`w1 k`, plus `b1 k`. -/

private theorem hidden_ref (e : Fin 1650000) (k : Fin 32) :
    val_main_v54 (F := Ideal) x0 x1 x4 x5 (ix2 e k)
      = Cert.Spec.dist2 (fun d => val_main_v39 (F := Ideal) x0 x1 (ix2 e d)) (fun d => val_main_v46 (F := Ideal) x0 x1 (ix2 e d)) * x4 (ix2 0 k) + x5 (ix1 k) := by
  rw [val_main_v54_apply, val_main_v51_apply, Fin.sum_univ_one, val_main_v50_apply, val_main_v53_apply, val_main_v52_apply,
    show idx_main_v50 (lidx_main_v51 (ix2 e k) 0) = ix1 e from funext fun a => Fin.ext (by match a with | ⟨0, _⟩ => rfl),
    show ridx_main_v51 (ix2 e k) 0 = ix2 (0 : Fin 1) k from funext fun a => Fin.ext (by match a with | ⟨0, _⟩ => rfl | ⟨1, _⟩ => rfl),
    show idx_main_v52 (idx_main_v53 (ix2 e k)) = ix1 k from funext fun a => Fin.ext (by match a with | ⟨0, _⟩ => rfl),
    dist_ref]
  rfl

/-! ### The logit

The second product contracts the 32 hidden entries against the column `w2`; the bias `b2` is one number. -/

private theorem logit_ref (e : Fin 1650000) :
    val_main_v58 (F := Ideal) x0 x1 x4 x5 x6 x7 (ix2 e 0)
      = (∑ k : Fin 32, (Cert.Spec.dist2 (fun d => val_main_v39 (F := Ideal) x0 x1 (ix2 e d)) (fun d => val_main_v46 (F := Ideal) x0 x1 (ix2 e d)) * x4 (ix2 0 k) + x5 (ix1 k)) * x6 (ix2 k 0)) + x7 (ix1 0) := by
  rw [val_main_v58_apply, val_main_v55_apply, val_main_v57_apply, val_main_v56_apply,
    show idx_main_v56 (idx_main_v57 (ix2 e (0 : Fin 1))) = ix1 (0 : Fin 1) from funext fun a => Fin.ext (by match a with | ⟨0, _⟩ => rfl), Ideal.addf_def]
  refine congrArg (· + x7 (ix1 0)) (Finset.sum_congr rfl fun k _ => ?_)
  rw [show lidx_main_v55 (ix2 e (0 : Fin 1)) k = ix2 e k from funext fun a => Fin.ext (by match a with | ⟨0, _⟩ => rfl | ⟨1, _⟩ => rfl),
    show ridx_main_v55 (ix2 e (0 : Fin 1)) k = ix2 k (0 : Fin 1) from funext fun a => Fin.ext (by match a with | ⟨0, _⟩ => rfl | ⟨1, _⟩ => rfl),
    hidden_ref]

/-! ### The gate

`1 / (1 + exp (-z))`, with both ones the constant `1.0`, is the logistic function of `z` by definition. -/

private theorem gate_ref (e : Fin 1650000) :
    val_main_v64 (F := Ideal) x0 x1 x4 x5 x6 x7 (ix2 e 0)
      = Cert.Spec.gate (fun d => val_main_v39 (F := Ideal) x0 x1 (ix2 e d)) (fun d => val_main_v46 (F := Ideal) x0 x1 (ix2 e d))
          (fun k => x4 (ix2 0 k)) (fun k => x5 (ix1 k)) (fun k => x6 (ix2 k 0)) (x7 (ix1 0)) := by
  rw [val_main_v64_apply, val_main_v63_apply, val_main_cst_12_apply, val_main_v62_apply, val_main_v61_apply,
    val_main_cst_11_apply, val_main_v60_apply, val_main_v59_apply, logit_ref]
  simp only [Ideal.ofBits_def, Ideal.ofBits_one_f32, Ideal.hostDivf_def, Ideal.addf_def, Ideal.hostUnary_exp_def,
    Ideal.hostNegf_def, Ideal.negf_def]
  rfl

/-! ### The edge weight

`dinv[row] · 1 · dinv[col]` is `dinv[row] · dinv[col]`. -/

private theorem weight_ref (e : Fin 1650000) :
    val_main_v65 (F := Ideal) x1 (ix2 e 0)
      = val_main_v23 (F := Ideal) x1 (ix1 e) * val_main_v31 (F := Ideal) x1 (ix1 e) := by
  rw [val_main_v65_apply, show idx_main_v65 (ix2 e (0 : Fin 1)) = ix1 e from funext fun a => Fin.ext (by match a with | ⟨0, _⟩ => rfl),
    val_main_v32_apply, val_main_v24_apply, val_main_v9_apply, val_main_cst_apply]
  simp only [Ideal.ofBits_def, Ideal.ofBits_one_f32, Ideal.mulf_def, mul_one]

/-- The reference's message array at `(e, j)` is the message of edge `e` at column `j`, over its own gathered arrays. -/
theorem msg_ref (e : Fin 1650000) (j : Fin 128) :
    val_main_v75 (F := Ideal) x0 x1 x4 x5 x6 x7 (ix2 e j)
      = Cert.Spec.msg (fun d => val_main_v39 (F := Ideal) x0 x1 (ix2 e d)) (fun d => val_main_v46 (F := Ideal) x0 x1 (ix2 e d))
          (fun k => x4 (ix2 0 k)) (fun k => x5 (ix1 k)) (fun k => x6 (ix2 k 0)) (x7 (ix1 0))
          (val_main_v23 (F := Ideal) x1 (ix1 e) * val_main_v31 (F := Ideal) x1 (ix1 e))
          (val_main_v73 (F := Ideal) x0 x1 (ix2 e j)) := by
  rw [val_main_v75_apply, val_main_v74_apply, show idx_main_v74 (ix2 e j) = ix2 e (0 : Fin 1) from funext fun a => Fin.ext (by match a with | ⟨0, _⟩ => rfl | ⟨1, _⟩ => rfl),
    val_main_v66_apply, gate_ref, weight_ref]
  rfl

/-- The reference's output block at `(n, j)` is row `n` of its node sums against column `j` of the weight, plus the bias. -/
theorem mix_ref (n : Fin 50000) (j : Fin 128) :
    val_main_v82 (F := Ideal) x0 x1 x2 x3 x4 x5 x6 x7 (ix2 n j)
      = Cert.Spec.mix (fun k => val_main_v78 (F := Ideal) x0 x1 x4 x5 x6 x7 (ix2 n k)) (fun k => x2 (ix2 k j)) (x3 (ix1 j)) := by
  rw [val_main_v82_apply, val_main_v79_apply, val_main_v81_apply, val_main_v80_apply,
    show idx_main_v80 (idx_main_v81 (ix2 n j)) = ix1 j from funext fun a => Fin.ext (by match a with | ⟨0, _⟩ => rfl), Ideal.addf_def]
  unfold Cert.Spec.mix
  refine congrArg (· + x3 (ix1 j)) (Finset.sum_congr rfl fun k _ => ?_)
  rw [show lidx_main_v79 (ix2 n j) k = ix2 n k from funext fun a => Fin.ext (by match a with | ⟨0, _⟩ => rfl | ⟨1, _⟩ => rfl),
    show ridx_main_v79 (ix2 n j) k = ix2 k j from funext fun a => Fin.ext (by match a with | ⟨0, _⟩ => rfl | ⟨1, _⟩ => rfl)]

end Cert.ReferenceIdeal.RefSpec

end
-- ==== Proof.KernelValue.lean ====
/-
  The kernel program's result as a function of its arguments: the reference's last stage. The result is the position
  columns beside the second region's output; that output is, entry by entry, the mix of the node sums, and so is the
  reference's; the node sums are one scatter of the message array, and the message array is, entry by entry, the message
  of the edge's row in the region's inputs, which at an edge's row are the reference's gathered arrays.
-/
import proofs.«155262_j14190571946497_1_alg».proof.Proof.Gen.KernelIdeal.Frame
import proofs.«155262_j14190571946497_1_alg».proof.Proof.Spec
import proofs.«155262_j14190571946497_1_alg».proof.Proof.KArgs
import proofs.«155262_j14190571946497_1_alg».proof.Proof.RefStages
import proofs.«155262_j14190571946497_1_alg».proof.Proof.EdgeRegion
import proofs.«155262_j14190571946497_1_alg».proof.Proof.MixRegion
import proofs.«155262_j14190571946497_1_alg».proof.Proof.FoldEntry
import proofs.«155262_j14190571946497_1_alg».proof.Proof.FoldRest
import proofs.«155262_j14190571946497_1_alg».proof.Proof.RefSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.KArgs Cert.Spec

variable (m : (ℓ : Loc nD τ sig) → Buf (Elt Ideal) ℓ) (ρ : Dev nD → PrngReg)

/-- The message array, cut back to the edges, is the reference's message stage: entry `(e, j)` of either is the message of
    edge `e` at column `j` over the same gathered rows, the same parameters and the same edge weight. -/
theorem msg_eq (c : Dev nD) :
    FoldRest.msgArr m ρ c = Cert.ReferenceIdeal.ReadP.val_main_v75 (F := Ideal) (a0 m c) (a1 m c) (a4 m c) (a5 m c) (a6 m c) (a7 m c) := by
  funext i
  obtain ⟨e, j, rfl⟩ : ∃ (e : Fin 1650000) (j : Fin 128), i = ix2 e j := ⟨i 0, i 1, eq_ix2 i⟩
  rw [FoldRest.msgArr_apply, FoldRest.v61_eq, EdgeRegion.edge_array (V11 m ρ) c (up e) j, Cert.ReferenceIdeal.RefSpec.msg_ref]
  simp only [FoldEntry.entry54 m ρ c e, FoldEntry.entry55 m ρ c e, FoldEntry.entry56 m ρ c e, FoldEntry.entry57 m ρ c e,
    FoldRest.entry4 m ρ c, FoldRest.entry58 m ρ c, FoldRest.entry59 m ρ c, FoldRest.entry60 m ρ c]

/-- The node sums the second region stages are the reference's: one scatter of equal message arrays. -/
theorem sums_eq (c : Dev nD) :
    (V13 m ρ c main_v65 : S50000x128.Idx → EReal)
      = Cert.ReferenceIdeal.ReadP.val_main_v78 (F := Ideal) (a0 m c) (a1 m c) (a4 m c) (a5 m c) (a6 m c) (a7 m c) := by
  rw [FoldRest.mid65]
  unfold FoldRest.nodeSums
  rw [msg_eq]
  rfl

/-- The second region's output is the reference's mixed features: entry by entry the same mix of equal node sums. -/
theorem out_eq (c : Dev nD) :
    (V14 m ρ c main_v67 : S50000x128.Idx → EReal)
      = Cert.ReferenceIdeal.ReadP.val_main_v82 (F := Ideal) (a0 m c) (a1 m c) (a2 m c) (a3 m c) (a4 m c) (a5 m c) (a6 m c) (a7 m c) := by
  funext i
  obtain ⟨n, j, rfl⟩ : ∃ (n : Fin 50000) (j : Fin 128), i = ix2 n j := ⟨i 0, i 1, eq_ix2 i⟩
  rw [FoldRest.v67_eq, MixRegion.mix_array (V13 m ρ) c n j, Cert.ReferenceIdeal.RefSpec.mix_ref]
  simp only [sums_eq m ρ c, FoldRest.mid2 m ρ c, FoldRest.mid66 m ρ c]

/-- The last boundary's contents at the result buffer are the reference's last stage of the same arguments. -/
theorem kernel_value (c : Dev nD) :
    (W15 m ρ c (Proc.devRef .tc main_v68) : S50000x192.Idx → EReal)
      = Cert.ReferenceIdeal.ReadP.val_main_v83 (F := Ideal) (a0 m c) (a1 m c) (a2 m c) (a3 m c) (a4 m c) (a5 m c) (a6 m c) (a7 m c) := by
  rw [FoldRest.exit68, out_eq]
  rfl

end Cert.KernelIdeal.KernelValue

end
-- ==== Proof.lean ====
/-
  The certificate. Both programs compute, for a graph with self loops appended, the messages
  `sigmoid (mlp (‖coors[row] - coors[col]‖²)) · dinv[row] · dinv[col] · feats[row]`, sum them into their target nodes,
  and mix the sums with a 128 × 128 weight and a bias, returning the position columns beside the mixed features. The kernel
  program computes the messages in one kernel region over blocks of 4096 edges (on arrays padded with 688 zero rows that
  are cut off again) and the mix in a second region over blocks of 2000 nodes; the reference does both on the host. The
  gathers and the two scatter-sums are the same host operations in both. On the extended reals the two results are one
  function of the arguments (`KernelValue.kernel_value`): no law beyond `x · 1 = x`, `0 + x = x` and the definition of
  the logistic function is used, so the precondition is never opened.
-/
import proofs.«155262_j14190571946497_1_alg».proof.Defs
import proofs.«155262_j14190571946497_1_alg».proof.Proof.Gen.Kernel
import proofs.«155262_j14190571946497_1_alg».proof.Proof.Gen.Kernel.Frame
import proofs.«155262_j14190571946497_1_alg».proof.Proof.Gen.KernelIdeal
import proofs.«155262_j14190571946497_1_alg».proof.Proof.Gen.KernelIdeal.Frame
import proofs.«155262_j14190571946497_1_alg».proof.Proof.Gen.ReferenceIdeal
import proofs.«155262_j14190571946497_1_alg».proof.Proof.Gen.Pre_finite_inputs
import proofs.«155262_j14190571946497_1_alg».proof.Proof.RefRun
import proofs.«155262_j14190571946497_1_alg».proof.Proof.RefStages
import proofs.«155262_j14190571946497_1_alg».proof.Proof.KernelRun
import proofs.«155262_j14190571946497_1_alg».proof.Proof.KernelValue
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the (agreeing) arguments. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.ReferenceIdeal.ReadP.val_main_v83 (F := Ideal) (Cert.KernelIdeal.KArgs.a0 m c) (Cert.KernelIdeal.KArgs.a1 m c)
    (Cert.KernelIdeal.KArgs.a2 m c) (Cert.KernelIdeal.KArgs.a3 m c) (Cert.KernelIdeal.KArgs.a4 m c) (Cert.KernelIdeal.KArgs.a5 m c)
    (Cert.KernelIdeal.KArgs.a6 m c) (Cert.KernelIdeal.KArgs.a7 m c), ?_, ?_⟩
  · exact (θ_run Cert.KernelIdeal.defs _ _).mono
      (fun _ h c => ⟨(h c).1.trans (Cert.KernelIdeal.KernelValue.kernel_value m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v83_eq m' c]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
